-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x256x256 : Shape := ⟨4, ![64, 8, 256, 256]⟩
abbrev S64x1x256x256 : Shape := ⟨4, ![64, 1, 256, 256]⟩
abbrev S_ : Shape := ⟨0, ![]⟩

class Facts : Prop where
  bcast_S_S64x8x256x256 : S_.BroadcastsInDim S64x8x256x256 (![] : Fin 0 → Fin S64x8x256x256.rank)
  reducesTo_S64x8x256x256_S_d0_1_2_3 : S64x8x256x256.ReducesTo [0, 1, 2, 3] S_
  h_S_ : 0 < S_.numel
  bcast_S_S64x1x256x256 : S_.BroadcastsInDim S64x1x256x256 (![] : Fin 0 → Fin S64x1x256x256.rank)
  reducesTo_S64x1x256x256_S_d0_1_2_3 : S64x1x256x256.ReducesTo [0, 1, 2, 3] S_

variable [Facts]

def fn {F : FTy → Type} [FloatOps F] (main_arg0 : FVec F S64x8x256x256 .f32) (main_arg1 : FVec F S64x1x256x256 .f32) (main_arg2 : FVec F S64x1x256x256 .f32) : IVec S_ 1 :=
  let main_v0 : FVec F S64x8x256x256 .f32 := Host.absf main_arg0
  let main_cst : FVec F S_ .f32 := constant S_ .f32 0x7F800000#32
  let main_v1 : FVec F S64x8x256x256 .f32 := broadcastInDim S64x8x256x256 ![] bcast_S_S64x8x256x256 main_cst
  let main_v2 : IVec S64x8x256x256 1 := cmpf .olt main_v0 main_v1
  let main_c : IVec S_ 1 := constantI S_ 1 1#1
  let main_v3 : IVec S_ 1 := (fun x v => Host.reduce IntOp.andi x v reducesTo_S64x8x256x256_S_d0_1_2_3 h_S_) main_v2 main_c
  let main_v4 : FVec F S64x1x256x256 .f32 := Host.absf main_arg1
  let main_cst_0 : FVec F S_ .f32 := constant S_ .f32 0x7F800000#32
  let main_v5 : FVec F S64x1x256x256 .f32 := broadcastInDim S64x1x256x256 ![] bcast_S_S64x1x256x256 main_cst_0
  let main_v6 : IVec S64x1x256x256 1 := cmpf .olt main_v4 main_v5
  let main_c_1 : IVec S_ 1 := constantI S_ 1 1#1
  let main_v7 : IVec S_ 1 := (fun x v => Host.reduce IntOp.andi x v reducesTo_S64x1x256x256_S_d0_1_2_3 h_S_) main_v6 main_c_1
  let main_v8 : IVec S_ 1 := andi main_v3 main_v7
  let main_v9 : FVec F S64x1x256x256 .f32 := Host.absf main_arg2
  let main_cst_2 : FVec F S_ .f32 := constant S_ .f32 0x7F800000#32
  let main_v10 : FVec F S64x1x256x256 .f32 := broadcastInDim S64x1x256x256 ![] bcast_S_S64x1x256x256 main_cst_2
  let main_v11 : IVec S64x1x256x256 1 := cmpf .olt main_v9 main_v10
  let main_c_3 : IVec S_ 1 := constantI S_ 1 1#1
  let main_v12 : IVec S_ 1 := (fun x v => Host.reduce IntOp.andi x v reducesTo_S64x1x256x256_S_d0_1_2_3 h_S_) main_v11 main_c_3
  let main_v13 : IVec S_ 1 := andi main_v8 main_v12
  main_v13
-- ==== Kernel.lean ====
abbrev S64x8x256x256 : Shape := ⟨4, ![64, 8, 256, 256]⟩
abbrev S64x1x256x256 : Shape := ⟨4, ![64, 1, 256, 256]⟩
abbrev S4x8x256x256 : Shape := ⟨4, ![4, 8, 256, 256]⟩
abbrev S4x1x256x256 : Shape := ⟨4, ![4, 1, 256, 256]⟩
abbrev S4x256x256 : Shape := ⟨3, ![4, 256, 256]⟩
abbrev S4x1x256 : Shape := ⟨3, ![4, 1, 256]⟩
abbrev S4x255x256 : Shape := ⟨3, ![4, 255, 256]⟩
abbrev S4x256x1 : Shape := ⟨3, ![4, 256, 1]⟩
abbrev S4x256x255 : Shape := ⟨3, ![4, 256, 255]⟩

abbrev nBuf : Space → Nat
  | .hbm => 4
  | .vmem => 8
  | .smem => 0
  | _ => 0

abbrev bufTy : (tb : Table) → Fin (tcTables nBuf tb) → BufTy
  | .hbm, ⟨0, _⟩ => ⟨S64x8x256x256, .f32⟩
  | .hbm, ⟨1, _⟩ => ⟨S64x1x256x256, .f32⟩
  | .hbm, ⟨2, _⟩ => ⟨S64x1x256x256, .f32⟩
  | .hbm, ⟨3, _⟩ => ⟨S64x1x256x256, .f32⟩
  | .local _ .vmem, ⟨0, _⟩ => ⟨S4x8x256x256, .f32⟩
  | .local _ .vmem, ⟨1, _⟩ => ⟨S4x8x256x256, .f32⟩
  | .local _ .vmem, ⟨2, _⟩ => ⟨S4x1x256x256, .f32⟩
  | .local _ .vmem, ⟨3, _⟩ => ⟨S4x1x256x256, .f32⟩
  | .local _ .vmem, ⟨4, _⟩ => ⟨S4x1x256x256, .f32⟩
  | .local _ .vmem, ⟨5, _⟩ => ⟨S4x1x256x256, .f32⟩
  | .local _ .vmem, ⟨6, _⟩ => ⟨S4x1x256x256, .f32⟩
  | .local _ .vmem, ⟨7, _⟩ => ⟨S4x1x256x256, .f32⟩
  | _, _ => ⟨S64x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x8x256x256_S4x8x256x256_0_0_0_0 : ∀ a, (![0, 0, 0, 0] : Fin 4 → Nat) a + S4x8x256x256.size a ≤ S4x8x256x256.size a
  h_S4x8x256x256 : 0 < S4x8x256x256.numel
  inb_S4x1x256x256_S4x1x256x256_0_0_0_0 : ∀ a, (![0, 0, 0, 0] : Fin 4 → Nat) a + S4x1x256x256.size a ≤ S4x1x256x256.size a
  h_S4x1x256x256 : 0 < S4x1x256x256.numel
  shapeCasts_S4x1x256x256_S4x256x256 : S4x1x256x256.ShapeCasts S4x256x256
  reduces_S4x8x256x256_S4x256x256 : S4x8x256x256.Reduces [1] S4x256x256
  slices_S4x8x256x256_o0_0_0_0_S4x1x256x256 : S4x8x256x256.Slices ![0, 0, 0, 0] S4x1x256x256
  slices_S4x256x256_o0_1_0_S4x255x256 : S4x256x256.Slices ![0, 1, 0] S4x255x256
  concatenates_S4x255x256_S4x1x256_S4x256x256_d1 : Shape.Concatenates [S4x255x256, S4x1x256] S4x256x256 1
  slices_S4x256x256_o0_0_1_S4x256x255 : S4x256x256.Slices ![0, 0, 1] S4x256x255
  concatenates_S4x256x255_S4x256x1_S4x256x256_d2 : Shape.Concatenates [S4x256x255, S4x256x1] S4x256x256 2
  slices_S4x8x256x256_o0_1_0_0_S4x1x256x256 : S4x8x256x256.Slices ![0, 1, 0, 0] S4x1x256x256
  slices_S4x8x256x256_o0_2_0_0_S4x1x256x256 : S4x8x256x256.Slices ![0, 2, 0, 0] S4x1x256x256
  slices_S4x256x256_o0_0_0_S4x256x255 : S4x256x256.Slices ![0, 0, 0] S4x256x255
  concatenates_S4x256x1_S4x256x255_S4x256x256_d2 : Shape.Concatenates [S4x256x1, S4x256x255] S4x256x256 2
  slices_S4x8x256x256_o0_3_0_0_S4x1x256x256 : S4x8x256x256.Slices ![0, 3, 0, 0] S4x1x256x256
  slices_S4x8x256x256_o0_4_0_0_S4x1x256x256 : S4x8x256x256.Slices ![0, 4, 0, 0] S4x1x256x256
  slices_S4x8x256x256_o0_5_0_0_S4x1x256x256 : S4x8x256x256.Slices ![0, 5, 0, 0] S4x1x256x256
  slices_S4x256x256_o0_0_0_S4x255x256 : S4x256x256.Slices ![0, 0, 0] S4x255x256
  concatenates_S4x1x256_S4x255x256_S4x256x256_d1 : Shape.Concatenates [S4x1x256, S4x255x256] S4x256x256 1
  slices_S4x8x256x256_o0_6_0_0_S4x1x256x256 : S4x8x256x256.Slices ![0, 6, 0, 0] S4x1x256x256
  slices_S4x8x256x256_o0_7_0_0_S4x1x256x256 : S4x8x256x256.Slices ![0, 7, 0, 0] S4x1x256x256
  shapeCasts_S4x256x256_S4x1x256x256 : S4x256x256.ShapeCasts S4x1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x256x256.size a ≤ S64x8x256x256.size a
  hwx0_0 : ∀ i : grid0.Coords, EltTy.bits .f32 = 32 ∨ (Rect.block (s := S64x8x256x256) S4x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x256x256.size a ≤ S64x1x256x256.size a
  hwx0_1 : ∀ i : grid0.Coords, EltTy.bits .f32 = 32 ∨ (Rect.block (s := S64x1x256x256) S4x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x256x256.size a ≤ S64x1x256x256.size a
  hwx0_2 : ∀ i : grid0.Coords, EltTy.bits .f32 = 32 ∨ (Rect.block (s := S64x1x256x256) S4x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256x256.size a ≤ S64x1x256x256.size a
  hwx0_3 : ∀ i : grid0.Coords, EltTy.bits .f32 = 32 ∨ (Rect.block (s := S64x1x256x256) S4x1x256x256.size (cc0_transform_3 i) (hinb0_3 i)).WholeWords (EltTy.packing .f32)

variable [Facts₀]

abbrev win0_0 : Pipeline.Window sig grid0 :=
  Pipeline.Window.ofSpec (Memref.whole main_arg0) S4x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8x256x256 : Shape := ⟨4, ![64, 8, 256, 256]⟩
abbrev S64x1x256x256 : Shape := ⟨4, ![64, 1, 256, 256]⟩
abbrev S_ : Shape := ⟨0, ![]⟩
abbrev S64x256x256 : Shape := ⟨3, ![64, 256, 256]⟩
abbrev S64x4x256x256 : Shape := ⟨4, ![64, 4, 256, 256]⟩
abbrev S64x9x256x256 : Shape := ⟨4, ![64, 9, 256, 256]⟩
abbrev S64x258x258 : Shape := ⟨3, ![64, 258, 258]⟩

abbrev nBuf : Space → Nat
  | .hbm => 178
  | .vmem => 0
  | .smem => 0
  | _ => 0

abbrev hbmTy0_0 (i : Nat) : BufTy := match i % 128 with
  | 0 => ⟨S64x8x256x256, .f32⟩
  | 1 => ⟨S64x1x256x256, .f32⟩
  | 2 => ⟨S64x1x256x256, .f32⟩
  | 3 => ⟨S64x8x256x256, .f32⟩
  | 4 => ⟨S_, .f32⟩
  | 5 => ⟨S64x256x256, .f32⟩
  | 6 => ⟨S64x1x256x256, .f32⟩
  | 7 => ⟨S_, .f32⟩
  | 8 => ⟨S64x256x256, .f32⟩
  | 9 => ⟨S64x1x256x256, .f32⟩
  | 10 => ⟨S64x8x256x256, .f32⟩
  | 11 => ⟨S64x8x256x256, .f32⟩
  | 12 => ⟨S64x4x256x256, .f32⟩
  | 13 => ⟨S_, .f32⟩
  | 14 => ⟨S64x1x256x256, .f32⟩
  | 15 => ⟨S64x1x256x256, .f32⟩
  | 16 => ⟨S64x4x256x256, .f32⟩
  | 17 => ⟨S64x9x256x256, .f32⟩
  | 18 => ⟨S64x256x256, .f32⟩
  | 19 => ⟨S64x256x256, .f32⟩
  | 20 => ⟨S_, .f32⟩
  | 21 => ⟨S64x256x256, .f32⟩
  | 22 => ⟨S_, .i32⟩
  | 23 => ⟨S_, .f32⟩
  | 24 => ⟨S64x258x258, .f32⟩
  | 25 => ⟨S_, .i32⟩
  | 26 => ⟨S_, .i32⟩
  | 27 => ⟨S_, .i32⟩
  | 28 => ⟨S64x256x256, .f32⟩
  | 29 => ⟨S64x1x256x256, .f32⟩
  | 30 => ⟨S64x256x256, .f32⟩
  | 31 => ⟨S64x256x256, .f32⟩
  | 32 => ⟨S_, .i32⟩
  | 33 => ⟨S_, .f32⟩
  | 34 => ⟨S64x258x258, .f32⟩
  | 35 => ⟨S_, .i32⟩
  | 36 => ⟨S_, .i32⟩
  | 37 => ⟨S_, .i32⟩
  | 38 => ⟨S64x256x256, .f32⟩
  | 39 => ⟨S64x256x256, .f32⟩
  | 40 => ⟨S_, .i32⟩
  | 41 => ⟨S_, .f32⟩
  | 42 => ⟨S64x258x258, .f32⟩
  | 43 => ⟨S_, .i32⟩
  | 44 => ⟨S_, .i32⟩
  | 45 => ⟨S_, .i32⟩
  | 46 => ⟨S64x256x256, .f32⟩
  | 47 => ⟨S64x1x256x256, .f32⟩
  | 48 => ⟨S64x256x256, .f32⟩
  | 49 => ⟨S64x256x256, .f32⟩
  | 50 => ⟨S_, .i32⟩
  | 51 => ⟨S_, .f32⟩
  | 52 => ⟨S64x258x258, .f32⟩
  | 53 => ⟨S_, .i32⟩
  | 54 => ⟨S_, .i32⟩
  | 55 => ⟨S_, .i32⟩
  | 56 => ⟨S64x256x256, .f32⟩
  | 57 => ⟨S64x256x256, .f32⟩
  | 58 => ⟨S_, .i32⟩
  | 59 => ⟨S_, .f32⟩
  | 60 => ⟨S64x258x258, .f32⟩
  | 61 => ⟨S_, .i32⟩
  | 62 => ⟨S_, .i32⟩
  | 63 => ⟨S_, .i32⟩
  | 64 => ⟨S64x256x256, .f32⟩
  | 65 => ⟨S64x1x256x256, .f32⟩
  | 66 => ⟨S64x256x256, .f32⟩
  | 67 => ⟨S64x256x256, .f32⟩
  | 68 => ⟨S_, .i32⟩
  | 69 => ⟨S_, .f32⟩
  | 70 => ⟨S64x258x258, .f32⟩
  | 71 => ⟨S_, .i32⟩
  | 72 => ⟨S_, .i32⟩
  | 73 => ⟨S_, .i32⟩
  | 74 => ⟨S64x256x256, .f32⟩
  | 75 => ⟨S64x256x256, .f32⟩
  | 76 => ⟨S_, .i32⟩
  | 77 => ⟨S_, .f32⟩
  | 78 => ⟨S64x258x258, .f32⟩
  | 79 => ⟨S_, .i32⟩
  | 80 => ⟨S_, .i32⟩
  | 81 => ⟨S_, .i32⟩
  | 82 => ⟨S64x256x256, .f32⟩
  | 83 => ⟨S64x1x256x256, .f32⟩
  | 84 => ⟨S64x256x256, .f32⟩
  | 85 => ⟨S64x256x256, .f32⟩
  | 86 => ⟨S_, .i32⟩
  | 87 => ⟨S_, .f32⟩
  | 88 => ⟨S64x258x258, .f32⟩
  | 89 => ⟨S_, .i32⟩
  | 90 => ⟨S_, .i32⟩
  | 91 => ⟨S_, .i32⟩
  | 92 => ⟨S64x256x256, .f32⟩
  | 93 => ⟨S64x256x256, .f32⟩
  | 94 => ⟨S64x1x256x256, .f32⟩
  | 95 => ⟨S64x256x256, .f32⟩
  | 96 => ⟨S64x256x256, .f32⟩
  | 97 => ⟨S_, .i32⟩
  | 98 => ⟨S_, .f32⟩
  | 99 => ⟨S64x258x258, .f32⟩
  | 100 => ⟨S_, .i32⟩
  | 101 => ⟨S_, .i32⟩
  | 102 => ⟨S_, .i32⟩
  | 103 => ⟨S64x256x256, .f32⟩
  | 104 => ⟨S64x256x256, .f32⟩
  | 105 => ⟨S_, .i32⟩
  | 106 => ⟨S_, .f32⟩
  | 107 => ⟨S64x258x258, .f32⟩
  | 108 => ⟨S_, .i32⟩
  | 109 => ⟨S_, .i32⟩
  | 110 => ⟨S_, .i32⟩
  | 111 => ⟨S64x256x256, .f32⟩
  | 112 => ⟨S64x1x256x256, .f32⟩
  | 113 => ⟨S64x256x256, .f32⟩
  | 114 => ⟨S64x256x256, .f32⟩
  | 115 => ⟨S_, .i32⟩
  | 116 => ⟨S_, .f32⟩
  | 117 => ⟨S64x258x258, .f32⟩
  | 118 => ⟨S_, .i32⟩
  | 119 => ⟨S_, .i32⟩
  | 120 => ⟨S_, .i32⟩
  | 121 => ⟨S64x256x256, .f32⟩
  | 122 => ⟨S64x256x256, .f32⟩
  | 123 => ⟨S_, .i32⟩
  | 124 => ⟨S_, .f32⟩
  | 125 => ⟨S64x258x258, .f32⟩
  | 126 => ⟨S_, .i32⟩
  | 127 => ⟨S_, .i32⟩
  | _ => ⟨S64x8x256x256, .f32⟩

abbrev hbmTy0_1 (i : Nat) : BufTy := match i % 128 with
  | 0 => ⟨S_, .i32⟩
  | 1 => ⟨S64x256x256, .f32⟩
  | 2 => ⟨S64x1x256x256, .f32⟩
  | 3 => ⟨S64x256x256, .f32⟩
  | 4 => ⟨S64x256x256, .f32⟩
  | 5 => ⟨S_, .i32⟩
  | 6 => ⟨S_, .f32⟩
  | 7 => ⟨S64x258x258, .f32⟩
  | 8 => ⟨S_, .i32⟩
  | 9 => ⟨S_, .i32⟩
  | 10 => ⟨S_, .i32⟩
  | 11 => ⟨S64x256x256, .f32⟩
  | 12 => ⟨S64x256x256, .f32⟩
  | 13 => ⟨S_, .i32⟩
  | 14 => ⟨S_, .f32⟩
  | 15 => ⟨S64x258x258, .f32⟩
  | 16 => ⟨S_, .i32⟩
  | 17 => ⟨S_, .i32⟩
  | 18 => ⟨S_, .i32⟩
  | 19 => ⟨S64x256x256, .f32⟩
  | 20 => ⟨S64x1x256x256, .f32⟩
  | 21 => ⟨S64x256x256, .f32⟩
  | 22 => ⟨S64x256x256, .f32⟩
  | 23 => ⟨S_, .i32⟩
  | 24 => ⟨S_, .f32⟩
  | 25 => ⟨S64x258x258, .f32⟩
  | 26 => ⟨S_, .i32⟩
  | 27 => ⟨S_, .i32⟩
  | 28 => ⟨S_, .i32⟩
  | 29 => ⟨S64x256x256, .f32⟩
  | 30 => ⟨S64x256x256, .f32⟩
  | 31 => ⟨S_, .i32⟩
  | 32 => ⟨S_, .f32⟩
  | 33 => ⟨S64x258x258, .f32⟩
  | 34 => ⟨S_, .i32⟩
  | 35 => ⟨S_, .i32⟩
  | 36 => ⟨S_, .i32⟩
  | 37 => ⟨S64x256x256, .f32⟩
  | 38 => ⟨S64x1x256x256, .f32⟩
  | 39 => ⟨S64x256x256, .f32⟩
  | 40 => ⟨S64x256x256, .f32⟩
  | 41 => ⟨S_, .i32⟩
  | 42 => ⟨S_, .f32⟩
  | 43 => ⟨S64x258x258, .f32⟩
  | 44 => ⟨S_, .i32⟩
  | 45 => ⟨S_, .i32⟩
  | 46 => ⟨S_, .i32⟩
  | 47 => ⟨S64x256x256, .f32⟩
  | 48 => ⟨S64x256x256, .f32⟩
  | 49 => ⟨S64x1x256x256, .f32⟩
  | _ => ⟨S64x8x256x256, .f32⟩

abbrev hbmTy (i : Nat) : BufTy := match i / 128 with
  | 0 => hbmTy0_0 i
  | 1 => hbmTy0_1 i
  | _ => ⟨S64x8x256x256, .f32⟩

abbrev bufTy : (tb : Table) → Fin (tcTables nBuf tb) → BufTy
  | .hbm, ⟨i, _⟩ => hbmTy i
  | _, _ => ⟨S64x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_c_3 : Ref sig .tc := ⟨.hbm, 25, rfl⟩
abbrev main_c_4 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_call1_v0 : Ref sig .tc := ⟨.hbm, 33, rfl⟩
abbrev main_v20 : Ref sig .tc := ⟨.hbm, 34, rfl⟩
abbrev main_c_7 : Ref sig .tc := ⟨.hbm, 35, rfl⟩
abbrev main_c_8 : Ref sig .tc := ⟨.hbm, 36, rfl⟩
abbrev main_c_9 : Ref sig .tc := ⟨.hbm, 37, rfl⟩
abbrev main_v21 : Ref sig .tc := ⟨.hbm, 38, rfl⟩
abbrev main_v22 : Ref sig .tc := ⟨.hbm, 39, rfl⟩
abbrev main_c_10 : Ref sig .tc := ⟨.hbm, 40, rfl⟩
abbrev main_call2_v0 : Ref sig .tc := ⟨.hbm, 41, rfl⟩
abbrev main_v23 : Ref sig .tc := ⟨.hbm, 42, rfl⟩
abbrev main_c_11 : Ref sig .tc := ⟨.hbm, 43, rfl⟩
abbrev main_c_12 : Ref sig .tc := ⟨.hbm, 44, rfl⟩
abbrev main_c_13 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_14 : Ref sig .tc := ⟨.hbm, 50, rfl⟩
abbrev main_call3_v0 : Ref sig .tc := ⟨.hbm, 51, rfl⟩
abbrev main_v28 : Ref sig .tc := ⟨.hbm, 52, rfl⟩
abbrev main_c_15 : Ref sig .tc := ⟨.hbm, 53, rfl⟩
abbrev main_c_16 : Ref sig .tc := ⟨.hbm, 54, rfl⟩
abbrev main_c_17 : Ref sig .tc := ⟨.hbm, 55, rfl⟩
abbrev main_v29 : Ref sig .tc := ⟨.hbm, 56, rfl⟩
abbrev main_v30 : Ref sig .tc := ⟨.hbm, 57, rfl⟩
abbrev main_c_18 : Ref sig .tc := ⟨.hbm, 58, rfl⟩
abbrev main_call4_v0 : Ref sig .tc := ⟨.hbm, 59, rfl⟩
abbrev main_v31 : Ref sig .tc := ⟨.hbm, 60, rfl⟩
abbrev main_c_19 : Ref sig .tc := ⟨.hbm, 61, rfl⟩
abbrev main_c_20 : Ref sig .tc := ⟨.hbm, 62, rfl⟩
abbrev main_c_21 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_22 : Ref sig .tc := ⟨.hbm, 68, rfl⟩
abbrev main_call5_v0 : Ref sig .tc := ⟨.hbm, 69, rfl⟩
abbrev main_v36 : Ref sig .tc := ⟨.hbm, 70, rfl⟩
abbrev main_c_23 : Ref sig .tc := ⟨.hbm, 71, rfl⟩
abbrev main_c_24 : Ref sig .tc := ⟨.hbm, 72, rfl⟩
abbrev main_c_25 : Ref sig .tc := ⟨.hbm, 73, rfl⟩
abbrev main_v37 : Ref sig .tc := ⟨.hbm, 74, rfl⟩
abbrev main_v38 : Ref sig .tc := ⟨.hbm, 75, rfl⟩
abbrev main_c_26 : Ref sig .tc := ⟨.hbm, 76, rfl⟩
abbrev main_call6_v0 : Ref sig .tc := ⟨.hbm, 77, rfl⟩
abbrev main_v39 : Ref sig .tc := ⟨.hbm, 78, rfl⟩
abbrev main_c_27 : Ref sig .tc := ⟨.hbm, 79, rfl⟩
abbrev main_c_28 : Ref sig .tc := ⟨.hbm, 80, rfl⟩
abbrev main_c_29 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_30 : Ref sig .tc := ⟨.hbm, 86, rfl⟩
abbrev main_call7_v0 : Ref sig .tc := ⟨.hbm, 87, rfl⟩
abbrev main_v44 : Ref sig .tc := ⟨.hbm, 88, rfl⟩
abbrev main_c_31 : Ref sig .tc := ⟨.hbm, 89, rfl⟩
abbrev main_c_32 : Ref sig .tc := ⟨.hbm, 90, rfl⟩
abbrev main_c_33 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_34 : Ref sig .tc := ⟨.hbm, 97, rfl⟩
abbrev main_call8_v0 : Ref sig .tc := ⟨.hbm, 98, rfl⟩
abbrev main_v50 : Ref sig .tc := ⟨.hbm, 99, rfl⟩
abbrev main_c_35 : Ref sig .tc := ⟨.hbm, 100, rfl⟩
abbrev main_c_36 : Ref sig .tc := ⟨.hbm, 101, rfl⟩
abbrev main_c_37 : Ref sig .tc := ⟨.hbm, 102, rfl⟩
abbrev main_v51 : Ref sig .tc := ⟨.hbm, 103, rfl⟩
abbrev main_v52 : Ref sig .tc := ⟨.hbm, 104, rfl⟩
abbrev main_c_38 : Ref sig .tc := ⟨.hbm, 105, rfl⟩
abbrev main_call9_v0 : Ref sig .tc := ⟨.hbm, 106, rfl⟩
abbrev main_v53 : Ref sig .tc := ⟨.hbm, 107, rfl⟩
abbrev main_c_39 : Ref sig .tc := ⟨.hbm, 108, rfl⟩
abbrev main_c_40 : Ref sig .tc := ⟨.hbm, 109, rfl⟩
abbrev main_c_41 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_42 : Ref sig .tc := ⟨.hbm, 115, rfl⟩
abbrev main_call10_v0 : Ref sig .tc := ⟨.hbm, 116, rfl⟩
abbrev main_v58 : Ref sig .tc := ⟨.hbm, 117, rfl⟩
abbrev main_c_43 : Ref sig .tc := ⟨.hbm, 118, rfl⟩
abbrev main_c_44 : Ref sig .tc := ⟨.hbm, 119, rfl⟩
abbrev main_c_45 : Ref sig .tc := ⟨.hbm, 120, rfl⟩
abbrev main_v59 : Ref sig .tc := ⟨.hbm, 121, rfl⟩
abbrev main_v60 : Ref sig .tc := ⟨.hbm, 122, rfl⟩
abbrev main_c_46 : Ref sig .tc := ⟨.hbm, 123, rfl⟩
abbrev main_call11_v0 : Ref sig .tc := ⟨.hbm, 124, rfl⟩
abbrev main_v61 : Ref sig .tc := ⟨.hbm, 125, rfl⟩
abbrev main_c_47 : Ref sig .tc := ⟨.hbm, 126, rfl⟩
abbrev main_c_48 : Ref sig .tc := ⟨.hbm, 127, rfl⟩
abbrev main_c_49 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_50 : Ref sig .tc := ⟨.hbm, 133, rfl⟩
abbrev main_call12_v0 : Ref sig .tc := ⟨.hbm, 134, rfl⟩
abbrev main_v66 : Ref sig .tc := ⟨.hbm, 135, rfl⟩
abbrev main_c_51 : Ref sig .tc := ⟨.hbm, 136, rfl⟩
abbrev main_c_52 : Ref sig .tc := ⟨.hbm, 137, rfl⟩
abbrev main_c_53 : Ref sig .tc := ⟨.hbm, 138, rfl⟩
abbrev main_v67 : Ref sig .tc := ⟨.hbm, 139, rfl⟩
abbrev main_v68 : Ref sig .tc := ⟨.hbm, 140, rfl⟩
abbrev main_c_54 : Ref sig .tc := ⟨.hbm, 141, rfl⟩
abbrev main_call13_v0 : Ref sig .tc := ⟨.hbm, 142, rfl⟩
abbrev main_v69 : Ref sig .tc := ⟨.hbm, 143, rfl⟩
abbrev main_c_55 : Ref sig .tc := ⟨.hbm, 144, rfl⟩
abbrev main_c_56 : Ref sig .tc := ⟨.hbm, 145, rfl⟩
abbrev main_c_57 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_c_58 : Ref sig .tc := ⟨.hbm, 151, rfl⟩
abbrev main_call14_v0 : Ref sig .tc := ⟨.hbm, 152, rfl⟩
abbrev main_v74 : Ref sig .tc := ⟨.hbm, 153, rfl⟩
abbrev main_c_59 : Ref sig .tc := ⟨.hbm, 154, rfl⟩
abbrev main_c_60 : Ref sig .tc := ⟨.hbm, 155, rfl⟩
abbrev main_c_61 : Ref sig .tc := ⟨.hbm, 156, rfl⟩
abbrev main_v75 : Ref sig .tc := ⟨.hbm, 157, rfl⟩
abbrev main_v76 : Ref sig .tc := ⟨.hbm, 158, rfl⟩
abbrev main_c_62 : Ref sig .tc := ⟨.hbm, 159, rfl⟩
abbrev main_call15_v0 : Ref sig .tc := ⟨.hbm, 160, rfl⟩
abbrev main_v77 : Ref sig .tc := ⟨.hbm, 161, rfl⟩
abbrev main_c_63 : Ref sig .tc := ⟨.hbm, 162, rfl⟩
abbrev main_c_64 : Ref sig .tc := ⟨.hbm, 163, rfl⟩
abbrev main_c_65 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_c_66 : Ref sig .tc := ⟨.hbm, 169, rfl⟩
abbrev main_call16_v0 : Ref sig .tc := ⟨.hbm, 170, rfl⟩
abbrev main_v82 : Ref sig .tc := ⟨.hbm, 171, rfl⟩
abbrev main_c_67 : Ref sig .tc := ⟨.hbm, 172, rfl⟩
abbrev main_c_68 : Ref sig .tc := ⟨.hbm, 173, rfl⟩
abbrev main_c_69 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩

abbrev nD : Nat := 1
abbrev τ : Topo := Topo.v7x

variable {F : FTy → Type} [FloatOps F]

class Facts₀ : Prop where
  reducesTo_S64x8x256x256_S64x256x256_d1 : S64x8x256x256.ReducesTo [1] S64x256x256
  h_S_ : 0 < S_.numel
  bcast_S64x256x256_S64x1x256x256_0_2_3 : S64x256x256.BroadcastsInDim S64x1x256x256 (![0, 2, 3] : Fin 3 → Fin S64x1x256x256.rank)
  bcast_S64x1x256x256_S64x8x256x256_0_1_2_3 : S64x1x256x256.BroadcastsInDim S64x8x256x256 (![0, 1, 2, 3] : Fin 4 → Fin S64x8x256x256.rank)
  slices_S64x8x256x256_S64x4x256x256_0_0_0_0 : S64x8x256x256.Slices ![0, 0, 0, 0] S64x4x256x256
  bcast_S_S64x1x256x256 : S_.BroadcastsInDim S64x1x256x256 (![] : Fin 0 → Fin S64x1x256x256.rank)
  slices_S64x8x256x256_S64x4x256x256_0_4_0_0 : S64x8x256x256.Slices ![0, 4, 0, 0] S64x4x256x256
  concatenates_S64x4x256x256_S64x1x256x256_S64x4x256x256_S64x9x256x256_d1 : Shape.Concatenates [S64x4x256x256, S64x1x256x256, S64x4x256x256] S64x9x256x256 1
  shapeCasts_S64x1x256x256_S64x256x256 : S64x1x256x256.ShapeCasts S64x256x256
  bcast_S_S64x256x256 : S_.BroadcastsInDim S64x256x256 (![] : Fin 0 → Fin S64x256x256.rank)
  pads_S64x256x256_S64x258x258_000_110_110 : S64x256x256.Pads (![0, 1, 1] : Fin 3 → Nat) ![0, 1, 1] ![0, 0, 0] S64x258x258
  sliceFits_S64x258x258_S64x256x256 : S64x258x258.Slices (fun _ => 0) S64x256x256
  slices_S64x9x256x256_S64x1x256x256_0_0_0_0 : S64x9x256x256.Slices ![0, 0, 0, 0] S64x1x256x256
  slices_S64x9x256x256_S64x1x256x256_0_1_0_0 : S64x9x256x256.Slices ![0, 1, 0, 0] S64x1x256x256
  slices_S64x9x256x256_S64x1x256x256_0_2_0_0 : S64x9x256x256.Slices ![0, 2, 0, 0] S64x1x256x256
  slices_S64x9x256x256_S64x1x256x256_0_3_0_0 : S64x9x256x256.Slices ![0, 3, 0, 0] S64x1x256x256
  slices_S64x9x256x256_S64x1x256x256_0_4_0_0 : S64x9x256x256.Slices ![0, 4, 0, 0] S64x1x256x256
  slices_S64x9x256x256_S64x1x256x256_0_5_0_0 : S64x9x256x256.Slices ![0, 5, 0, 0] S64x1x256x256
  slices_S64x9x256x256_S64x1x256x256_0_6_0_0 : S64x9x256x256.Slices ![0, 6, 0, 0] S64x1x256x256
  slices_S64x9x256x256_S64x1x256x256_0_7_0_0 : S64x9x256x256.Slices ![0, 7, 0, 0] S64x1x256x256
  slices_S64x9x256x256_S64x1x256x256_0_8_0_0 : S64x9x256x256.Slices ![0, 8, 0, 0] S64x1x256x256

variable [Facts₀]

class Facts : Prop extends Facts₀ where

variable [Facts]
-- ==== Proof.RefRunH.lean ====
/-
  The reference program's @main as three lists of host operations, one per window of its text, and its run read back
  window by window: the contents after a window are a function of the contents before it, and a buffer a later window
  reads is stated once as a term of the launch contents. Every weakly fair execution ends with the result buffer at
  the composed term of the three arguments, the arguments unchanged.
-/
import proofs.«155739_j25074019074065_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The join of the three weight pieces along the plane axis, with its operands as plain arguments (inside the list
    of pieces a later argument's type mentions them, and no rewrite reaches them there). -/
def fn_main_v11 : (main_v7 : Ref sig .tc).ty.Contents (Elt F) → (main_v9 : Ref sig .tc).ty.Contents (Elt F) → (main_v10 : Ref sig .tc).ty.Contents (Elt F) → (main_v11 : Ref sig .tc).ty.Contents (Elt F) :=
  fun u0 u1 u2 => concatenate S64x9x256x256 1 [⟨S64x4x256x256, u0⟩, ⟨S64x1x256x256, u1⟩, ⟨S64x4x256x256, u2⟩] concatenates_S64x4x256x256_S64x1x256x256_S64x4x256x256_S64x9x256x256_d1

set_option maxHeartbeats 2000000 in
/-- The operations of window 0 of @main, in order (a called function's two operations stand in its call's place). -/
abbrev ops_part0 : List (HloOp τ sig (Elt F)) :=
  [ unary main_arg0 main_v0 (Host.absf : (⟨S64x8x256x256, .f32⟩ : BufTy).Contents (Elt F) → (⟨S64x8x256x256, .f32⟩ : BufTy).Contents (Elt F)),
    nullary main_cst (constant S_ .f32 0x00000000#32),
    binary main_v0 main_cst main_v1 ((fun x v => Host.reduceAdd x v reducesTo_S64x8x256x256_S64x256x256_d1 h_S_) : (⟨S64x8x256x256, .f32⟩ : BufTy).Contents (Elt F) → (⟨S_, .f32⟩ : BufTy).Contents (Elt F) → (⟨S64x256x256, .f32⟩ : BufTy).Contents (Elt F)),
    unary main_v1 main_v2 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    nullary main_cst_0 (constant S_ .f32 0x00000000#32),
    binary main_arg0 main_cst_0 main_v3 ((fun x v => Host.reduceAdd x v reducesTo_S64x8x256x256_S64x256x256_d1 h_S_) : (⟨S64x8x256x256, .f32⟩ : BufTy).Contents (Elt F) → (⟨S_, .f32⟩ : BufTy).Contents (Elt F) → (⟨S64x256x256, .f32⟩ : BufTy).Contents (Elt F)),
    unary main_v3 main_v4 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    unary main_v2 main_v5 (broadcastInDim S64x8x256x256 ![0, 1, 2, 3] bcast_S64x1x256x256_S64x8x256x256_0_1_2_3 : (⟨S64x1x256x256, .f32⟩ : BufTy).Contents (Elt F) → (⟨S64x8x256x256, .f32⟩ : BufTy).Contents (Elt F)),
    binary main_arg0 main_v5 main_v6 (Host.divf : (⟨S64x8x256x256, .f32⟩ : BufTy).Contents (Elt F) → (⟨S64x8x256x256, .f32⟩ : BufTy).Contents (Elt F) → (⟨S64x8x256x256, .f32⟩ : BufTy).Contents (Elt F)),
    unary main_v6 main_v7 ((extractStridedSlice S64x4x256x256 ![0, 0, 0, 0] · slices_S64x8x256x256_S64x4x256x256_0_0_0_0) : (⟨S64x8x256x256, .f32⟩ : BufTy).Contents (Elt F) → (⟨S64x4x256x256, .f32⟩ : BufTy).Contents (Elt F)),
    nullary main_cst_1 (constant S_ .f32 0x3F800000#32),
    unary main_cst_1 main_v8 (broadcastInDim S64x1x256x256 ![] bcast_S_S64x1x256x256 : (⟨S_, .f32⟩ : BufTy).Contents (Elt F) → (⟨S64x1x256x256, .f32⟩ : BufTy).Contents (Elt F)),
    binary main_v8 main_v4 main_v9 (subf : (⟨S64x1x256x256, .f32⟩ : BufTy).Contents (Elt F) → (⟨S64x1x256x256, .f32⟩ : BufTy).Contents (Elt F) → (⟨S64x1x256x256, .f32⟩ : BufTy).Contents (Elt F)),
    unary main_v6 main_v10 ((extractStridedSlice S64x4x256x256 ![0, 4, 0, 0] · slices_S64x8x256x256_S64x4x256x256_0_4_0_0) : (⟨S64x8x256x256, .f32⟩ : BufTy).Contents (Elt F) → (⟨S64x4x256x256, .f32⟩ : BufTy).Contents (Elt F)),
    nary ![main_v7, main_v9, main_v10] main_v11 (fun u => fn_main_v11 (F := F) (u 0) (u 1) (u 2)),
    reshape main_arg1 main_v12 rfl shapeCasts_S64x1x256x256_S64x256x256,
    reshape main_arg2 main_v13 rfl shapeCasts_S64x1x256x256_S64x256x256,
    nullary main_cst_2 (constant S_ .f32 0x00000000#32),
    unary main_cst_2 main_v14 (broadcastInDim S64x256x256 ![] bcast_S_S64x256x256 : (⟨S_, .f32⟩ : BufTy).Contents (Elt F) → (⟨S64x256x256, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S64x256x256, .f32⟩) main_v12) (TRef.of (T := ⟨S_, .f32⟩) main_call0_v0) (TRef.of (T := ⟨S64x258x258, .f32⟩) main_v15) (fun x v => pad S64x258x258 ![0, 1, 1] ![0, 1, 1] ![0, 0, 0] x v pads_S64x256x256_S64x258x258_000_110_110 h_S_),
    nullary main_c_3 (constantI S_ 32 0#32),
    nullary main_c_4 (constantI S_ 32 0#32),
    nullary main_c_5 (constantI S_ 32 0#32),
    unaryIndexed main_v15 ![main_c_3, main_c_4, main_c_5] ⟨S_, .i32⟩ main_v16 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v17 ((extractStridedSlice S64x1x256x256 ![0, 0, 0, 0] · slices_S64x9x256x256_S64x1x256x256_0_0_0_0) : (⟨S64x9x256x256, .f32⟩ : BufTy).Contents (Elt F) → (⟨S64x1x256x256, .f32⟩ : BufTy).Contents (Elt F)),
    reshape main_v17 main_v18 rfl shapeCasts_S64x1x256x256_S64x256x256,
    binary main_v18 main_v16 main_v19 (mulf : (⟨S64x256x256, .f32⟩ : BufTy).Contents (Elt F) → (⟨S64x256x256, .f32⟩ : BufTy).Contents (Elt F) → (⟨S64x256x256, .f32⟩ : BufTy).Contents (Elt F)),
    nullary main_c_6 (constantI S_ 32 0#32),
    TRef.unary (TRef.of (T := ⟨S_, .i32⟩) main_c_6) (TRef.of (T := ⟨S_, .f32⟩) main_call1_v0) (sitofp .f32),
    TRef.binary (TRef.of (T := ⟨S64x256x256, .f32⟩) main_v19) (TRef.of (T := ⟨S_, .f32⟩) main_call1_v0) (TRef.of (T := ⟨S64x258x258, .f32⟩) main_v20) (fun x v => pad S64x258x258 ![0, 1, 1] ![0, 1, 1] ![0, 0, 0] x v pads_S64x256x256_S64x258x258_000_110_110 h_S_),
    nullary main_c_7 (constantI S_ 32 0#32),
    nullary main_c_8 (constantI S_ 32 2#32),
    nullary main_c_9 (constantI S_ 32 2#32),
    unaryIndexed main_v20 ![main_c_7, main_c_8, main_c_9] ⟨S_, .i32⟩ main_v21 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v14 main_v21 main_v22 (addf : (⟨S64x256x256, .f32⟩ : BufTy).Contents (Elt F) → (⟨S64x256x256, .f32⟩ : BufTy).Contents (Elt F) → (⟨S64x256x256, .f32⟩ : BufTy).Contents (Elt F)),
    nullary main_c_10 (constantI S_ 32 0#32),
    TRef.unary (TRef.of (T := ⟨S_, .i32⟩) main_c_10) (TRef.of (T := ⟨S_, .f32⟩) main_call2_v0) (sitofp .f32),
    TRef.binary (TRef.of (T := ⟨S64x256x256, .f32⟩) main_v12) (TRef.of (T := ⟨S_, .f32⟩) main_call2_v0) (TRef.of (T := ⟨S64x258x258, .f32⟩) main_v23) (fun x v => pad S64x258x258 ![0, 1, 1] ![0, 1, 1] ![0, 0, 0] x v pads_S64x256x256_S64x258x258_000_110_110 h_S_),
    nullary main_c_11 (constantI S_ 32 0#32),
    nullary main_c_12 (constantI S_ 32 0#32),
    nullary main_c_13 (constantI S_ 32 1#32),
    unaryIndexed main_v23 ![main_c_11, main_c_12, main_c_13] ⟨S_, .i32⟩ main_v24 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v25 ((extractStridedSlice S64x1x256x256 ![0, 1, 0, 0] · slices_S64x9x256x256_S64x1x256x256_0_1_0_0) : (⟨S64x9x256x256, .f32⟩ : BufTy).Contents (Elt F) → (⟨S64x1x256x256, .f32⟩ : BufTy).Contents (Elt F)),
    reshape main_v25 main_v26 rfl shapeCasts_S64x1x256x256_S64x256x256,
    binary main_v26 main_v24 main_v27 (mulf : (⟨S64x256x256, .f32⟩ : BufTy).Contents (Elt F) → (⟨S64x256x256, .f32⟩ : BufTy).Contents (Elt F) → (⟨S64x256x256, .f32⟩ : BufTy).Contents (Elt F)),
    nullary main_c_14 (constantI S_ 32 0#32),
    TRef.unary (TRef.of (T := ⟨S_, .i32⟩) main_c_14) (TRef.of (T := ⟨S_, .f32⟩) main_call3_v0) (sitofp .f32),
    TRef.binary (TRef.of (T := ⟨S64x256x256, .f32⟩) main_v27) (TRef.of (T := ⟨S_, .f32⟩) main_call3_v0) (TRef.of (T := ⟨S64x258x258, .f32⟩) main_v28) (fun x v => pad S64x258x258 ![0, 1, 1] ![0, 1, 1] ![0, 0, 0] x v pads_S64x256x256_S64x258x258_000_110_110 h_S_),
    nullary main_c_15 (constantI S_ 32 0#32),
    nullary main_c_16 (constantI S_ 32 2#32),
    nullary main_c_17 (constantI S_ 32 1#32),
    unaryIndexed main_v28 ![main_c_15, main_c_16, main_c_17] ⟨S_, .i32⟩ main_v29 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v22 main_v29 main_v30 (addf : (⟨S64x256x256, .f32⟩ : BufTy).Contents (Elt F) → (⟨S64x256x256, .f32⟩ : BufTy).Contents (Elt F) → (⟨S64x256x256, .f32⟩ : BufTy).Contents (Elt F)),
    nullary main_c_18 (constantI S_ 32 0#32),
    TRef.unary (TRef.of (T := ⟨S_, .i32⟩) main_c_18) (TRef.of (T := ⟨S_, .f32⟩) main_call4_v0) (sitofp .f32),
    TRef.binary (TRef.of (T := ⟨S64x256x256, .f32⟩) main_v12) (TRef.of (T := ⟨S_, .f32⟩) main_call4_v0) (TRef.of (T := ⟨S64x258x258, .f32⟩) main_v31) (fun x v => pad S64x258x258 ![0, 1, 1] ![0, 1, 1] ![0, 0, 0] x v pads_S64x256x256_S64x258x258_000_110_110 h_S_),
    nullary main_c_19 (constantI S_ 32 0#32),
    nullary main_c_20 (constantI S_ 32 0#32),
    nullary main_c_21 (constantI S_ 32 2#32),
    unaryIndexed main_v31 ![main_c_19, main_c_20, main_c_21] ⟨S_, .i32⟩ main_v32 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v33 ((extractStridedSlice S64x1x256x256 ![0, 2, 0, 0] · slices_S64x9x256x256_S64x1x256x256_0_2_0_0) : (⟨S64x9x256x256, .f32⟩ : BufTy).Contents (Elt F) → (⟨S64x1x256x256, .f32⟩ : BufTy).Contents (Elt F)),
    reshape main_v33 main_v34 rfl shapeCasts_S64x1x256x256_S64x256x256,
    binary main_v34 main_v32 main_v35 (mulf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- The operations of window 1 of @main, in order (a called function's two operations stand in its call's place). -/
abbrev ops_part1 : List (HloOp τ sig (Elt F)) :=
  [ nullary main_c_22 (constantI S_ 32 0#32),
    TRef.unary (TRef.of (T := ⟨S_, .i32⟩) main_c_22) (TRef.of (T := ⟨S_, .f32⟩) main_call5_v0) (sitofp .f32),
    TRef.binary (TRef.of (T := ⟨S64x256x256, .f32⟩) main_v35) (TRef.of (T := ⟨S_, .f32⟩) main_call5_v0) (TRef.of (T := ⟨S64x258x258, .f32⟩) main_v36) (fun x v => pad S64x258x258 ![0, 1, 1] ![0, 1, 1] ![0, 0, 0] x v pads_S64x256x256_S64x258x258_000_110_110 h_S_),
    nullary main_c_23 (constantI S_ 32 0#32),
    nullary main_c_24 (constantI S_ 32 2#32),
    nullary main_c_25 (constantI S_ 32 0#32),
    unaryIndexed main_v36 ![main_c_23, main_c_24, main_c_25] ⟨S_, .i32⟩ main_v37 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v30 main_v37 main_v38 (addf : (⟨S64x256x256, .f32⟩ : BufTy).Contents (Elt F) → (⟨S64x256x256, .f32⟩ : BufTy).Contents (Elt F) → (⟨S64x256x256, .f32⟩ : BufTy).Contents (Elt F)),
    nullary main_c_26 (constantI S_ 32 0#32),
    TRef.unary (TRef.of (T := ⟨S_, .i32⟩) main_c_26) (TRef.of (T := ⟨S_, .f32⟩) main_call6_v0) (sitofp .f32),
    TRef.binary (TRef.of (T := ⟨S64x256x256, .f32⟩) main_v12) (TRef.of (T := ⟨S_, .f32⟩) main_call6_v0) (TRef.of (T := ⟨S64x258x258, .f32⟩) main_v39) (fun x v => pad S64x258x258 ![0, 1, 1] ![0, 1, 1] ![0, 0, 0] x v pads_S64x256x256_S64x258x258_000_110_110 h_S_),
    nullary main_c_27 (constantI S_ 32 0#32),
    nullary main_c_28 (constantI S_ 32 1#32),
    nullary main_c_29 (constantI S_ 32 0#32),
    unaryIndexed main_v39 ![main_c_27, main_c_28, main_c_29] ⟨S_, .i32⟩ main_v40 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v41 ((extractStridedSlice S64x1x256x256 ![0, 3, 0, 0] · slices_S64x9x256x256_S64x1x256x256_0_3_0_0) : (⟨S64x9x256x256, .f32⟩ : BufTy).Contents (Elt F) → (⟨S64x1x256x256, .f32⟩ : BufTy).Contents (Elt F)),
    reshape main_v41 main_v42 rfl shapeCasts_S64x1x256x256_S64x256x256,
    binary main_v42 main_v40 main_v43 (mulf : (⟨S64x256x256, .f32⟩ : BufTy).Contents (Elt F) → (⟨S64x256x256, .f32⟩ : BufTy).Contents (Elt F) → (⟨S64x256x256, .f32⟩ : BufTy).Contents (Elt F)),
    nullary main_c_30 (constantI S_ 32 0#32),
    TRef.unary (TRef.of (T := ⟨S_, .i32⟩) main_c_30) (TRef.of (T := ⟨S_, .f32⟩) main_call7_v0) (sitofp .f32),
    TRef.binary (TRef.of (T := ⟨S64x256x256, .f32⟩) main_v43) (TRef.of (T := ⟨S_, .f32⟩) main_call7_v0) (TRef.of (T := ⟨S64x258x258, .f32⟩) main_v44) (fun x v => pad S64x258x258 ![0, 1, 1] ![0, 1, 1] ![0, 0, 0] x v pads_S64x256x256_S64x258x258_000_110_110 h_S_),
    nullary main_c_31 (constantI S_ 32 0#32),
    nullary main_c_32 (constantI S_ 32 1#32),
    nullary main_c_33 (constantI S_ 32 2#32),
    unaryIndexed main_v44 ![main_c_31, main_c_32, main_c_33] ⟨S_, .i32⟩ main_v45 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v38 main_v45 main_v46 (addf : (⟨S64x256x256, .f32⟩ : BufTy).Contents (Elt F) → (⟨S64x256x256, .f32⟩ : BufTy).Contents (Elt F) → (⟨S64x256x256, .f32⟩ : BufTy).Contents (Elt F)),
    unary main_v11 main_v47 ((extractStridedSlice S64x1x256x256 ![0, 4, 0, 0] · slices_S64x9x256x256_S64x1x256x256_0_4_0_0) : (⟨S64x9x256x256, .f32⟩ : BufTy).Contents (Elt F) → (⟨S64x1x256x256, .f32⟩ : BufTy).Contents (Elt F)),
    reshape main_v47 main_v48 rfl shapeCasts_S64x1x256x256_S64x256x256,
    binary main_v48 main_v13 main_v49 (mulf : (⟨S64x256x256, .f32⟩ : BufTy).Contents (Elt F) → (⟨S64x256x256, .f32⟩ : BufTy).Contents (Elt F) → (⟨S64x256x256, .f32⟩ : BufTy).Contents (Elt F)),
    nullary main_c_34 (constantI S_ 32 0#32),
    TRef.unary (TRef.of (T := ⟨S_, .i32⟩) main_c_34) (TRef.of (T := ⟨S_, .f32⟩) main_call8_v0) (sitofp .f32),
    TRef.binary (TRef.of (T := ⟨S64x256x256, .f32⟩) main_v49) (TRef.of (T := ⟨S_, .f32⟩) main_call8_v0) (TRef.of (T := ⟨S64x258x258, .f32⟩) main_v50) (fun x v => pad S64x258x258 ![0, 1, 1] ![0, 1, 1] ![0, 0, 0] x v pads_S64x256x256_S64x258x258_000_110_110 h_S_),
    nullary main_c_35 (constantI S_ 32 0#32),
    nullary main_c_36 (constantI S_ 32 1#32),
    nullary main_c_37 (constantI S_ 32 1#32),
    unaryIndexed main_v50 ![main_c_35, main_c_36, main_c_37] ⟨S_, .i32⟩ main_v51 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v46 main_v51 main_v52 (addf : (⟨S64x256x256, .f32⟩ : BufTy).Contents (Elt F) → (⟨S64x256x256, .f32⟩ : BufTy).Contents (Elt F) → (⟨S64x256x256, .f32⟩ : BufTy).Contents (Elt F)),
    nullary main_c_38 (constantI S_ 32 0#32),
    TRef.unary (TRef.of (T := ⟨S_, .i32⟩) main_c_38) (TRef.of (T := ⟨S_, .f32⟩) main_call9_v0) (sitofp .f32),
    TRef.binary (TRef.of (T := ⟨S64x256x256, .f32⟩) main_v12) (TRef.of (T := ⟨S_, .f32⟩) main_call9_v0) (TRef.of (T := ⟨S64x258x258, .f32⟩) main_v53) (fun x v => pad S64x258x258 ![0, 1, 1] ![0, 1, 1] ![0, 0, 0] x v pads_S64x256x256_S64x258x258_000_110_110 h_S_),
    nullary main_c_39 (constantI S_ 32 0#32),
    nullary main_c_40 (constantI S_ 32 1#32),
    nullary main_c_41 (constantI S_ 32 2#32),
    unaryIndexed main_v53 ![main_c_39, main_c_40, main_c_41] ⟨S_, .i32⟩ main_v54 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v55 ((extractStridedSlice S64x1x256x256 ![0, 5, 0, 0] · slices_S64x9x256x256_S64x1x256x256_0_5_0_0) : (⟨S64x9x256x256, .f32⟩ : BufTy).Contents (Elt F) → (⟨S64x1x256x256, .f32⟩ : BufTy).Contents (Elt F)),
    reshape main_v55 main_v56 rfl shapeCasts_S64x1x256x256_S64x256x256,
    binary main_v56 main_v54 main_v57 (mulf : (⟨S64x256x256, .f32⟩ : BufTy).Contents (Elt F) → (⟨S64x256x256, .f32⟩ : BufTy).Contents (Elt F) → (⟨S64x256x256, .f32⟩ : BufTy).Contents (Elt F)),
    nullary main_c_42 (constantI S_ 32 0#32),
    TRef.unary (TRef.of (T := ⟨S_, .i32⟩) main_c_42) (TRef.of (T := ⟨S_, .f32⟩) main_call10_v0) (sitofp .f32),
    TRef.binary (TRef.of (T := ⟨S64x256x256, .f32⟩) main_v57) (TRef.of (T := ⟨S_, .f32⟩) main_call10_v0) (TRef.of (T := ⟨S64x258x258, .f32⟩) main_v58) (fun x v => pad S64x258x258 ![0, 1, 1] ![0, 1, 1] ![0, 0, 0] x v pads_S64x256x256_S64x258x258_000_110_110 h_S_),
    nullary main_c_43 (constantI S_ 32 0#32),
    nullary main_c_44 (constantI S_ 32 1#32),
    nullary main_c_45 (constantI S_ 32 0#32),
    unaryIndexed main_v58 ![main_c_43, main_c_44, main_c_45] ⟨S_, .i32⟩ main_v59 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v52 main_v59 main_v60 (addf : (⟨S64x256x256, .f32⟩ : BufTy).Contents (Elt F) → (⟨S64x256x256, .f32⟩ : BufTy).Contents (Elt F) → (⟨S64x256x256, .f32⟩ : BufTy).Contents (Elt F)),
    nullary main_c_46 (constantI S_ 32 0#32),
    TRef.unary (TRef.of (T := ⟨S_, .i32⟩) main_c_46) (TRef.of (T := ⟨S_, .f32⟩) main_call11_v0) (sitofp .f32),
    TRef.binary (TRef.of (T := ⟨S64x256x256, .f32⟩) main_v12) (TRef.of (T := ⟨S_, .f32⟩) main_call11_v0) (TRef.of (T := ⟨S64x258x258, .f32⟩) main_v61) (fun x v => pad S64x258x258 ![0, 1, 1] ![0, 1, 1] ![0, 0, 0] x v pads_S64x256x256_S64x258x258_000_110_110 h_S_),
    nullary main_c_47 (constantI S_ 32 0#32),
    nullary main_c_48 (constantI S_ 32 2#32),
    nullary main_c_49 (constantI S_ 32 0#32),
    unaryIndexed main_v61 ![main_c_47, main_c_48, main_c_49] ⟨S_, .i32⟩ main_v62 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v63 ((extractStridedSlice S64x1x256x256 ![0, 6, 0, 0] · slices_S64x9x256x256_S64x1x256x256_0_6_0_0) : (⟨S64x9x256x256, .f32⟩ : BufTy).Contents (Elt F) → (⟨S64x1x256x256, .f32⟩ : BufTy).Contents (Elt F)),
    reshape main_v63 main_v64 rfl shapeCasts_S64x1x256x256_S64x256x256,
    binary main_v64 main_v62 main_v65 (mulf : (⟨S64x256x256, .f32⟩ : BufTy).Contents (Elt F) → (⟨S64x256x256, .f32⟩ : BufTy).Contents (Elt F) → (⟨S64x256x256, .f32⟩ : BufTy).Contents (Elt F)),
    nullary main_c_50 (constantI S_ 32 0#32),
    TRef.unary (TRef.of (T := ⟨S_, .i32⟩) main_c_50) (TRef.of (T := ⟨S_, .f32⟩) main_call12_v0) (sitofp .f32),
    TRef.binary (TRef.of (T := ⟨S64x256x256, .f32⟩) main_v65) (TRef.of (T := ⟨S_, .f32⟩) main_call12_v0) (TRef.of (T := ⟨S64x258x258, .f32⟩) main_v66) (fun x v => pad S64x258x258 ![0, 1, 1] ![0, 1, 1] ![0, 0, 0] x v pads_S64x256x256_S64x258x258_000_110_110 h_S_) ]

set_option maxHeartbeats 2000000 in
/-- The operations of window 2 of @main, in order (a called function's two operations stand in its call's place). -/
abbrev ops_part2 : List (HloOp τ sig (Elt F)) :=
  [ nullary main_c_51 (constantI S_ 32 0#32),
    nullary main_c_52 (constantI S_ 32 0#32),
    nullary main_c_53 (constantI S_ 32 2#32),
    unaryIndexed main_v66 ![main_c_51, main_c_52, main_c_53] ⟨S_, .i32⟩ main_v67 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v60 main_v67 main_v68 (addf : (⟨S64x256x256, .f32⟩ : BufTy).Contents (Elt F) → (⟨S64x256x256, .f32⟩ : BufTy).Contents (Elt F) → (⟨S64x256x256, .f32⟩ : BufTy).Contents (Elt F)),
    nullary main_c_54 (constantI S_ 32 0#32),
    TRef.unary (TRef.of (T := ⟨S_, .i32⟩) main_c_54) (TRef.of (T := ⟨S_, .f32⟩) main_call13_v0) (sitofp .f32),
    TRef.binary (TRef.of (T := ⟨S64x256x256, .f32⟩) main_v12) (TRef.of (T := ⟨S_, .f32⟩) main_call13_v0) (TRef.of (T := ⟨S64x258x258, .f32⟩) main_v69) (fun x v => pad S64x258x258 ![0, 1, 1] ![0, 1, 1] ![0, 0, 0] x v pads_S64x256x256_S64x258x258_000_110_110 h_S_),
    nullary main_c_55 (constantI S_ 32 0#32),
    nullary main_c_56 (constantI S_ 32 2#32),
    nullary main_c_57 (constantI S_ 32 1#32),
    unaryIndexed main_v69 ![main_c_55, main_c_56, main_c_57] ⟨S_, .i32⟩ main_v70 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v71 ((extractStridedSlice S64x1x256x256 ![0, 7, 0, 0] · slices_S64x9x256x256_S64x1x256x256_0_7_0_0) : (⟨S64x9x256x256, .f32⟩ : BufTy).Contents (Elt F) → (⟨S64x1x256x256, .f32⟩ : BufTy).Contents (Elt F)),
    reshape main_v71 main_v72 rfl shapeCasts_S64x1x256x256_S64x256x256,
    binary main_v72 main_v70 main_v73 (mulf : (⟨S64x256x256, .f32⟩ : BufTy).Contents (Elt F) → (⟨S64x256x256, .f32⟩ : BufTy).Contents (Elt F) → (⟨S64x256x256, .f32⟩ : BufTy).Contents (Elt F)),
    nullary main_c_58 (constantI S_ 32 0#32),
    TRef.unary (TRef.of (T := ⟨S_, .i32⟩) main_c_58) (TRef.of (T := ⟨S_, .f32⟩) main_call14_v0) (sitofp .f32),
    TRef.binary (TRef.of (T := ⟨S64x256x256, .f32⟩) main_v73) (TRef.of (T := ⟨S_, .f32⟩) main_call14_v0) (TRef.of (T := ⟨S64x258x258, .f32⟩) main_v74) (fun x v => pad S64x258x258 ![0, 1, 1] ![0, 1, 1] ![0, 0, 0] x v pads_S64x256x256_S64x258x258_000_110_110 h_S_),
    nullary main_c_59 (constantI S_ 32 0#32),
    nullary main_c_60 (constantI S_ 32 0#32),
    nullary main_c_61 (constantI S_ 32 1#32),
    unaryIndexed main_v74 ![main_c_59, main_c_60, main_c_61] ⟨S_, .i32⟩ main_v75 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v68 main_v75 main_v76 (addf : (⟨S64x256x256, .f32⟩ : BufTy).Contents (Elt F) → (⟨S64x256x256, .f32⟩ : BufTy).Contents (Elt F) → (⟨S64x256x256, .f32⟩ : BufTy).Contents (Elt F)),
    nullary main_c_62 (constantI S_ 32 0#32),
    TRef.unary (TRef.of (T := ⟨S_, .i32⟩) main_c_62) (TRef.of (T := ⟨S_, .f32⟩) main_call15_v0) (sitofp .f32),
    TRef.binary (TRef.of (T := ⟨S64x256x256, .f32⟩) main_v12) (TRef.of (T := ⟨S_, .f32⟩) main_call15_v0) (TRef.of (T := ⟨S64x258x258, .f32⟩) main_v77) (fun x v => pad S64x258x258 ![0, 1, 1] ![0, 1, 1] ![0, 0, 0] x v pads_S64x256x256_S64x258x258_000_110_110 h_S_),
    nullary main_c_63 (constantI S_ 32 0#32),
    nullary main_c_64 (constantI S_ 32 2#32),
    nullary main_c_65 (constantI S_ 32 2#32),
    unaryIndexed main_v77 ![main_c_63, main_c_64, main_c_65] ⟨S_, .i32⟩ main_v78 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v79 ((extractStridedSlice S64x1x256x256 ![0, 8, 0, 0] · slices_S64x9x256x256_S64x1x256x256_0_8_0_0) : (⟨S64x9x256x256, .f32⟩ : BufTy).Contents (Elt F) → (⟨S64x1x256x256, .f32⟩ : BufTy).Contents (Elt F)),
    reshape main_v79 main_v80 rfl shapeCasts_S64x1x256x256_S64x256x256,
    binary main_v80 main_v78 main_v81 (mulf : (⟨S64x256x256, .f32⟩ : BufTy).Contents (Elt F) → (⟨S64x256x256, .f32⟩ : BufTy).Contents (Elt F) → (⟨S64x256x256, .f32⟩ : BufTy).Contents (Elt F)),
    nullary main_c_66 (constantI S_ 32 0#32),
    TRef.unary (TRef.of (T := ⟨S_, .i32⟩) main_c_66) (TRef.of (T := ⟨S_, .f32⟩) main_call16_v0) (sitofp .f32),
    TRef.binary (TRef.of (T := ⟨S64x256x256, .f32⟩) main_v81) (TRef.of (T := ⟨S_, .f32⟩) main_call16_v0) (TRef.of (T := ⟨S64x258x258, .f32⟩) main_v82) (fun x v => pad S64x258x258 ![0, 1, 1] ![0, 1, 1] ![0, 0, 0] x v pads_S64x256x256_S64x258x258_000_110_110 h_S_),
    nullary main_c_67 (constantI S_ 32 0#32),
    nullary main_c_68 (constantI S_ 32 0#32),
    nullary main_c_69 (constantI S_ 32 0#32),
    unaryIndexed main_v82 ![main_c_67, main_c_68, main_c_69] ⟨S_, .i32⟩ main_v83 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v76 main_v83 main_v84 (addf : (⟨S64x256x256, .f32⟩ : BufTy).Contents (Elt F) → (⟨S64x256x256, .f32⟩ : BufTy).Contents (Elt F) → (⟨S64x256x256, .f32⟩ : BufTy).Contents (Elt F)),
    unary main_v84 main_v85 (broadcastInDim S64x1x256x256 ![0, 2, 3] bcast_S64x256x256_S64x1x256x256_0_2_3 : (⟨S64x256x256, .f32⟩ : BufTy).Contents (Elt F) → (⟨S64x1x256x256, .f32⟩ : BufTy).Contents (Elt F)) ]

/-- @main's operations, in order. -/
abbrev ops : List (HloOp τ sig (Elt F)) :=
  ops_part0 ++ (ops_part1 ++ ops_part2)

set_option maxRecDepth 8192 in
set_option maxHeartbeats 2000000 in
theorem main_part0_eq (c : Dev nD) : main_part0 (F := F) c = seq ops_part0 := rfl
set_option maxRecDepth 8192 in
set_option maxHeartbeats 2000000 in
theorem main_part1_eq (c : Dev nD) : main_part1 (F := F) c = seq ops_part1 := rfl
set_option maxRecDepth 8192 in
set_option maxHeartbeats 2000000 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 2000000 in
theorem ops_part0_sub : (ops_part0 : List (HloOp τ sig (Elt F))).Forall fun op => op.bufs ⊆ tcRefs τ sig :=
  ⟨unary_bufs_sub .., nullary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., unary_bufs_sub .., nary_bufs_sub .., reshape_bufs_sub .., reshape_bufs_sub .., nullary_bufs_sub .., unary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub ..⟩
set_option maxRecDepth 8192 in
set_option maxHeartbeats 2000000 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
set_option maxHeartbeats 2000000 in
theorem ops_part1_sub : (ops_part1 : List (HloOp τ sig (Elt F))).Forall fun op => op.bufs ⊆ tcRefs τ sig :=
  ⟨nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub ..⟩
set_option maxRecDepth 8192 in
set_option maxHeartbeats 2000000 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
set_option maxHeartbeats 2000000 in
theorem ops_part2_sub : (ops_part2 : List (HloOp τ sig (Elt F))).Forall fun op => op.bufs ⊆ tcRefs τ sig :=
  ⟨nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., nullary_bufs_sub .., unary_bufs_sub .., binary_bufs_sub .., nullary_bufs_sub .., nullary_bufs_sub .., nullary_bufs_sub .., unaryIndexed_bufs_sub .., unary_bufs_sub .., reshape_bufs_sub .., binary_bufs_sub .., nullary_bufs_sub .., unary_bufs_sub .., binary_bufs_sub .., nullary_bufs_sub .., nullary_bufs_sub .., nullary_bufs_sub .., unaryIndexed_bufs_sub .., binary_bufs_sub .., unary_bufs_sub ..⟩
set_option maxRecDepth 8192 in
set_option maxHeartbeats 2000000 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]
theorem ops_fresh : ∀ op ∈ (ops : List (HloOp τ sig (Elt F))), op.fresh = ∅ := fun op h => by
  simp only [ops, List.mem_append] at h
  rcases h with h | h | h
  exacts [List.forall_iff_forall_mem.mp ops_part0_fresh op h, List.forall_iff_forall_mem.mp ops_part1_fresh op h, List.forall_iff_forall_mem.mp ops_part2_fresh op h]

/-! ## Reading a window back -/

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A slice at three start indices, each index read at its own buffer: the family of the three contents as a literal
    vector, so that each entry can be rewritten where it stands. -/
theorem unaryIndexed3_result' {a y p q r : Ref sig .tc} (T : BufTy)
    (f : a.ty.Contents (Elt F) → (Fin 3 → T.Contents (Elt F)) → y.ty.Contents (Elt F)) (hT ha hix hy)
    (V : Valuation τ sig (Elt F)) :
    (unaryIndexed (τ := τ) a ![p, q, r] T y f hT ha hix hy).result V (no_index (Proc.devRef .tc y))
      = f (V (Proc.devRef .tc a))
          ![cast (congrArg (fun U : BufTy => U.Contents (Elt F)) (hT 0)) (V (Proc.devRef .tc p)),
            cast (congrArg (fun U : BufTy => U.Contents (Elt F)) (hT 1)) (V (Proc.devRef .tc q)),
            cast (congrArg (fun U : BufTy => U.Contents (Elt F)) (hT 2)) (V (Proc.devRef .tc r))] := by
  rw [unaryIndexed_result']
  congr 1
  funext k
  fin_cases k <;> rfl

/-- One pass over a literal line of operations: each operation's result at its own buffer is its function's value, at
    any other buffer what was there. -/
macro "read_window" : tactic =>
  `(tactic| (simp (disch := decide) only [after_cons, after_nil,
      nullary_result', unary_result', binary_result', reshape_result', nary_result', unaryIndexed3_result',
      nullary_result_ne', unary_result_ne', binary_result_ne', reshape_result_ne', nary_result_ne', unaryIndexed_result_ne']))

/-! ## The buffers a later window reads, as terms of the launch contents -/

set_option maxRecDepth 8192 in
/-- The nine planes: four weights, one minus the plain sum, four weights. -/
def t11 (V0 : Valuation τ sig (Elt F)) : (Proc.devRef .tc main_v11 : DevRef τ sig).ty.Contents (Elt F) :=
  fn_main_v11 (F := F) (extractStridedSlice S64x4x256x256 ![0, 0, 0, 0] (Host.divf (V0 (Proc.devRef .tc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (V0 (Proc.devRef .tc main_arg0))) (constant S_ .f32 0x00000000#32) reducesTo_S64x8x256x256_S64x256x256_d1 h_S_)))) slices_S64x8x256x256_S64x4x256x256_0_0_0_0) (subf (broadcastInDim S64x1x256x256 ![] bcast_S_S64x1x256x256 (constant S_ .f32 0x3F800000#32)) (broadcastInDim S64x1x256x256 ![0, 2, 3] bcast_S64x256x256_S64x1x256x256_0_2_3 (Host.reduceAdd (V0 (Proc.devRef .tc main_arg0)) (constant S_ .f32 0x00000000#32) reducesTo_S64x8x256x256_S64x256x256_d1 h_S_))) (extractStridedSlice S64x4x256x256 ![0, 4, 0, 0] (Host.divf (V0 (Proc.devRef .tc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (V0 (Proc.devRef .tc main_arg0))) (constant S_ .f32 0x00000000#32) reducesTo_S64x8x256x256_S64x256x256_d1 h_S_)))) slices_S64x8x256x256_S64x4x256x256_0_4_0_0)
set_option maxRecDepth 8192 in
/-- The current array without its unit axis. -/
def t12 (V0 : Valuation τ sig (Elt F)) : (Proc.devRef .tc main_v12 : DevRef τ sig).ty.Contents (Elt F) :=
  shapeCast _ (V0 (Proc.devRef .tc main_arg1)) shapeCasts_S64x1x256x256_S64x256x256
set_option maxRecDepth 8192 in
/-- The coarse array without its unit axis. -/
def t13 (V0 : Valuation τ sig (Elt F)) : (Proc.devRef .tc main_v13 : DevRef τ sig).ty.Contents (Elt F) :=
  shapeCast _ (V0 (Proc.devRef .tc main_arg2)) shapeCasts_S64x1x256x256_S64x256x256
set_option maxRecDepth 8192 in
/-- The sum after the first two taps. -/
def t30 (V0 : Valuation τ sig (Elt F)) : (Proc.devRef .tc main_v30 : DevRef τ sig).ty.Contents (Elt F) :=
  addf (addf (broadcastInDim S64x256x256 ![] bcast_S_S64x256x256 (constant S_ .f32 0x00000000#32)) (Host.dynamicSlice S64x256x256 (pad S64x258x258 ![0, 1, 1] ![0, 1, 1] ![0, 0, 0] (mulf (shapeCast _ (extractStridedSlice S64x1x256x256 ![0, 0, 0, 0] (t11 V0) slices_S64x9x256x256_S64x1x256x256_0_0_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 0#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 2#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 1, 0, 0] (t11 V0) slices_S64x9x256x256_S64x1x256x256_0_1_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 0#32, constantI S_ 32 1#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 2#32, constantI S_ 32 1#32] : Fin 3 → (⟨S_, .i32⟩ : BufTy).Contents (Elt F))) k (Shape.Idx.first h_S_)).toInt) sliceFits_S64x258x258_S64x256x256)
set_option maxRecDepth 8192 in
/-- The third tap's product before its zero border. -/
def t35 (V0 : Valuation τ sig (Elt F)) : (Proc.devRef .tc main_v35 : DevRef τ sig).ty.Contents (Elt F) :=
  mulf (shapeCast _ (extractStridedSlice S64x1x256x256 ![0, 2, 0, 0] (t11 V0) slices_S64x9x256x256_S64x1x256x256_0_2_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 0#32, constantI S_ 32 2#32] : Fin 3 → (⟨S_, .i32⟩ : BufTy).Contents (Elt F))) k (Shape.Idx.first h_S_)).toInt) sliceFits_S64x258x258_S64x256x256)
set_option maxRecDepth 8192 in
/-- The sum after six of the nine taps. -/
def t60 (V0 : Valuation τ sig (Elt F)) : (Proc.devRef .tc main_v60 : DevRef τ sig).ty.Contents (Elt F) :=
  addf (addf (addf (addf (t30 V0) (Host.dynamicSlice S64x256x256 (pad S64x258x258 ![0, 1, 1] ![0, 1, 1] ![0, 0, 0] (t35 V0) (sitofp .f32 (constantI S_ 32 0#32)) pads_S64x256x256_S64x258x258_000_110_110 h_S_) (fun k => (((![constantI S_ 32 0#32, constantI S_ 32 2#32, constantI S_ 32 0#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 3, 0, 0] (t11 V0) slices_S64x9x256x256_S64x1x256x256_0_3_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 1#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 1#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 4, 0, 0] (t11 V0) slices_S64x9x256x256_S64x1x256x256_0_4_0_0) shapeCasts_S64x1x256x256_S64x256x256) (t13 V0)) (sitofp .f32 (constantI S_ 32 0#32)) pads_S64x256x256_S64x258x258_000_110_110 h_S_) (fun k => (((![constantI S_ 32 0#32, constantI S_ 32 1#32, constantI S_ 32 1#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 5, 0, 0] (t11 V0) slices_S64x9x256x256_S64x1x256x256_0_5_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 1#32, constantI S_ 32 2#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 1#32, constantI S_ 32 0#32] : Fin 3 → (⟨S_, .i32⟩ : BufTy).Contents (Elt F))) k (Shape.Idx.first h_S_)).toInt) sliceFits_S64x258x258_S64x256x256)
set_option maxRecDepth 8192 in
/-- The seventh tap's product inside its zero border. -/
def t66 (V0 : Valuation τ sig (Elt F)) : (Proc.devRef .tc main_v66 : DevRef τ sig).ty.Contents (Elt F) :=
  pad S64x258x258 ![0, 1, 1] ![0, 1, 1] ![0, 0, 0] (mulf (shapeCast _ (extractStridedSlice S64x1x256x256 ![0, 6, 0, 0] (t11 V0) slices_S64x9x256x256_S64x1x256x256_0_6_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 2#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_
set_option maxRecDepth 8192 in
/-- The result: the sum of the nine taps with its unit axis back. -/
def t85 (V0 : Valuation τ sig (Elt F)) : (Proc.devRef .tc main_v85 : DevRef τ sig).ty.Contents (Elt F) :=
  broadcastInDim S64x1x256x256 ![0, 2, 3] bcast_S64x256x256_S64x1x256x256_0_2_3 (addf (addf (addf (t60 V0) (Host.dynamicSlice S64x256x256 (t66 V0) (fun k => (((![constantI S_ 32 0#32, constantI S_ 32 0#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 7, 0, 0] (t11 V0) slices_S64x9x256x256_S64x1x256x256_0_7_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 2#32, constantI S_ 32 1#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 0#32, constantI S_ 32 1#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 8, 0, 0] (t11 V0) slices_S64x9x256x256_S64x1x256x256_0_8_0_0) shapeCasts_S64x1x256x256_S64x256x256) (Host.dynamicSlice S64x256x256 (pad S64x258x258 ![0, 1, 1] ![0, 1, 1] ![0, 0, 0] (t12 V0) (sitofp .f32 (constantI S_ 32 0#32)) pads_S64x256x256_S64x258x258_000_110_110 h_S_) (fun k => (((![constantI S_ 32 0#32, constantI S_ 32 2#32, constantI S_ 32 2#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 0#32, constantI S_ 32 0#32] : Fin 3 → (⟨S_, .i32⟩ : BufTy).Contents (Elt F))) k (Shape.Idx.first h_S_)).toInt) sliceFits_S64x258x258_S64x256x256))

/-- The contents after the first window, after the first two, after all three. -/
def val1 (V0 : Valuation τ sig (Elt F)) : Valuation τ sig (Elt F) := after ops_part0 V0
def val2 (V0 : Valuation τ sig (Elt F)) : Valuation τ sig (Elt F) := after ops_part1 (val1 V0)
def val3 (V0 : Valuation τ sig (Elt F)) : Valuation τ sig (Elt F) := after ops_part2 (val2 V0)

theorem after_ops (V0 : Valuation τ sig (Elt F)) : after ops V0 = val3 V0 := by
  simp only [ops, after_app]
  rfl

/-! ## Window by window -/

set_option maxRecDepth 8192 in
set_option maxHeartbeats 4000000 in
theorem val1_main_arg0 (V0 : Valuation τ sig (Elt F)) : val1 V0 (no_index (Proc.devRef .tc main_arg0)) = V0 (Proc.devRef .tc main_arg0) := by
  unfold val1
  simp only [ops_part0]
  read_window
  try dsimp only [Matrix.cons_val]
  try read_window
  all_goals rfl
set_option maxRecDepth 8192 in
set_option maxHeartbeats 4000000 in
theorem val1_main_arg1 (V0 : Valuation τ sig (Elt F)) : val1 V0 (no_index (Proc.devRef .tc main_arg1)) = V0 (Proc.devRef .tc main_arg1) := by
  unfold val1
  simp only [ops_part0]
  read_window
  try dsimp only [Matrix.cons_val]
  try read_window
  all_goals rfl
set_option maxRecDepth 8192 in
set_option maxHeartbeats 4000000 in
theorem val1_main_arg2 (V0 : Valuation τ sig (Elt F)) : val1 V0 (no_index (Proc.devRef .tc main_arg2)) = V0 (Proc.devRef .tc main_arg2) := by
  unfold val1
  simp only [ops_part0]
  read_window
  try dsimp only [Matrix.cons_val]
  try read_window
  all_goals rfl
set_option maxRecDepth 8192 in
set_option maxHeartbeats 4000000 in
theorem val1_main_v11 (V0 : Valuation τ sig (Elt F)) : val1 V0 (no_index (Proc.devRef .tc main_v11)) = t11 V0 := by
  unfold val1
  simp only [ops_part0]
  read_window
  try dsimp only [Matrix.cons_val]
  try read_window
  all_goals rfl
set_option maxRecDepth 8192 in
set_option maxHeartbeats 4000000 in
theorem val1_main_v12 (V0 : Valuation τ sig (Elt F)) : val1 V0 (no_index (Proc.devRef .tc main_v12)) = t12 V0 := by
  unfold val1
  simp only [ops_part0]
  read_window
  try dsimp only [Matrix.cons_val]
  try read_window
  all_goals rfl
set_option maxRecDepth 8192 in
set_option maxHeartbeats 4000000 in
theorem val1_main_v13 (V0 : Valuation τ sig (Elt F)) : val1 V0 (no_index (Proc.devRef .tc main_v13)) = t13 V0 := by
  unfold val1
  simp only [ops_part0]
  read_window
  try dsimp only [Matrix.cons_val]
  try read_window
  all_goals rfl
set_option maxRecDepth 8192 in
set_option maxHeartbeats 4000000 in
theorem val1_main_v30 (V0 : Valuation τ sig (Elt F)) : val1 V0 (no_index (Proc.devRef .tc main_v30)) = t30 V0 := by
  unfold val1
  simp only [ops_part0]
  read_window
  try dsimp only [Matrix.cons_val]
  try read_window
  all_goals rfl
set_option maxRecDepth 8192 in
set_option maxHeartbeats 4000000 in
theorem val1_main_v35 (V0 : Valuation τ sig (Elt F)) : val1 V0 (no_index (Proc.devRef .tc main_v35)) = t35 V0 := by
  unfold val1
  simp only [ops_part0]
  read_window
  try dsimp only [Matrix.cons_val]
  try read_window
  all_goals rfl
set_option maxRecDepth 8192 in
set_option maxHeartbeats 4000000 in
theorem val2_main_arg0 (V0 : Valuation τ sig (Elt F)) : val2 V0 (no_index (Proc.devRef .tc main_arg0)) = V0 (Proc.devRef .tc main_arg0) := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_arg1 (V0 : Valuation τ sig (Elt F)) : val2 V0 (no_index (Proc.devRef .tc main_arg1)) = V0 (Proc.devRef .tc main_arg1) := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_arg2 (V0 : Valuation τ sig (Elt F)) : val2 V0 (no_index (Proc.devRef .tc main_arg2)) = V0 (Proc.devRef .tc main_arg2) := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_v11 (V0 : Valuation τ sig (Elt F)) : val2 V0 (no_index (Proc.devRef .tc main_v11)) = t11 V0 := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_v12 (V0 : Valuation τ sig (Elt F)) : val2 V0 (no_index (Proc.devRef .tc main_v12)) = t12 V0 := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_v60 (V0 : Valuation τ sig (Elt F)) : val2 V0 (no_index (Proc.devRef .tc main_v60)) = t60 V0 := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val2_main_v66 (V0 : Valuation τ sig (Elt F)) : val2 V0 (no_index (Proc.devRef .tc main_v66)) = t66 V0 := by
  unfold val2
  simp only [ops_part1]
  read_window
  try dsimp only [Matrix.cons_val]
  try read_window
  try simp only [val1_main_arg0, val1_main_arg1, val1_main_arg2, val1_main_v11, val1_main_v12, val1_main_v13, val1_main_v30, val1_main_v35]
  all_goals rfl
set_option maxRecDepth 8192 in
set_option maxHeartbeats 4000000 in
theorem val3_main_arg0 (V0 : Valuation τ sig (Elt F)) : val3 V0 (no_index (Proc.devRef .tc main_arg0)) = V0 (Proc.devRef .tc main_arg0) := by
  unfold val3
  simp only [ops_part2]
  read_window
  try dsimp only [Matrix.cons_val]
  try read_window
  try simp only [val2_main_arg0, val2_main_arg1, val2_main_arg2, val2_main_v11, val2_main_v12, val2_main_v60, val2_main_v66]
  all_goals rfl
set_option maxRecDepth 8192 in
set_option maxHeartbeats 4000000 in
theorem val3_main_arg1 (V0 : Valuation τ sig (Elt F)) : val3 V0 (no_index (Proc.devRef .tc main_arg1)) = V0 (Proc.devRef .tc main_arg1) := by
  unfold val3
  simp only [ops_part2]
  read_window
  try dsimp only [Matrix.cons_val]
  try read_window
  try simp only [val2_main_arg0, val2_main_arg1, val2_main_arg2, val2_main_v11, val2_main_v12, val2_main_v60, val2_main_v66]
  all_goals rfl
set_option maxRecDepth 8192 in
set_option maxHeartbeats 4000000 in
theorem val3_main_arg2 (V0 : Valuation τ sig (Elt F)) : val3 V0 (no_index (Proc.devRef .tc main_arg2)) = V0 (Proc.devRef .tc main_arg2) := by
  unfold val3
  simp only [ops_part2]
  read_window
  try dsimp only [Matrix.cons_val]
  try read_window
  try simp only [val2_main_arg0, val2_main_arg1, val2_main_arg2, val2_main_v11, val2_main_v12, val2_main_v60, val2_main_v66]
  all_goals rfl
set_option maxRecDepth 8192 in
set_option maxHeartbeats 4000000 in
theorem val3_main_v85 (V0 : Valuation τ sig (Elt F)) : val3 V0 (no_index (Proc.devRef .tc main_v85)) = t85 V0 := by
  unfold val3
  simp only [ops_part2]
  read_window
  try dsimp only [Matrix.cons_val]
  try read_window
  try simp only [val2_main_arg0, val2_main_arg1, val2_main_arg2, val2_main_v11, val2_main_v12, val2_main_v60, val2_main_v66]
  all_goals rfl

/-! ## The run -/

set_option maxRecDepth 8192 in
set_option maxHeartbeats 4000000 in
/-- The result buffer's composed term of the three arguments' launch contents, written out in full. -/
def res_main_v85 (m : (ℓ : Loc nD τ sig) → Buf (Elt F) ℓ) (c : Dev nD) : Buf (Elt F) ((c.tc : Thread nD τ).loc main_v85) :=
  broadcastInDim S64x1x256x256 ![0, 2, 3] bcast_S64x256x256_S64x1x256x256_0_2_3 (addf (addf (addf (addf (addf (addf (addf (addf (addf (broadcastInDim S64x256x256 ![] bcast_S_S64x256x256 (constant S_ .f32 0x00000000#32)) (Host.dynamicSlice S64x256x256 (pad S64x258x258 ![0, 1, 1] ![0, 1, 1] ![0, 0, 0] (mulf (shapeCast _ (extractStridedSlice S64x1x256x256 ![0, 0, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_0_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 0#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 2#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 1, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_1_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 0#32, constantI S_ 32 1#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 2#32, constantI S_ 32 1#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 2, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_2_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 0#32, constantI S_ 32 2#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 2#32, constantI S_ 32 0#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 3, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_3_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 1#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 1#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 4, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_4_0_0) shapeCasts_S64x1x256x256_S64x256x256) (shapeCast _ (m ((c.tc : Thread nD τ).loc main_arg2)) shapeCasts_S64x1x256x256_S64x256x256)) (sitofp .f32 (constantI S_ 32 0#32)) pads_S64x256x256_S64x258x258_000_110_110 h_S_) (fun k => (((![constantI S_ 32 0#32, constantI S_ 32 1#32, constantI S_ 32 1#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 5, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_5_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 1#32, constantI S_ 32 2#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 1#32, constantI S_ 32 0#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 6, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_6_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 2#32, constantI S_ 32 0#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 0#32, constantI S_ 32 2#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 7, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_7_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 2#32, constantI S_ 32 1#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 0#32, constantI S_ 32 1#32] : Fin 3 → (⟨S_, .i32⟩ : BufTy).Contents (Elt F))) k (Shape.Idx.first h_S_)).toInt) sliceFits_S64x258x258_S64x256x256)) (Host.dynamicSlice S64x256x256 (pad S64x258x258 ![0, 1, 1] ![0, 1, 1] ![0, 0, 0] (mulf (shapeCast _ (extractStridedSlice S64x1x256x256 ![0, 8, 0, 0] (concatenate S64x9x256x256 1 [⟨S64x4x256x256, (extractStridedSlice S64x4x256x256 ![0, 0, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_0_0_0)⟩, ⟨S64x1x256x256, (subf (broadcastInDim S64x1x256x256 ![] bcast_S_S64x1x256x256 (constant S_ .f32 0x3F800000#32)) (broadcastInDim S64x1x256x256 ![0, 2, 3] bcast_S64x256x256_S64x1x256x256_0_2_3 (Host.reduceAdd (m ((c.tc : Thread nD τ).loc main_arg0)) (constant S_ .f32 0x00000000#32) reducesTo_S64x8x256x256_S64x256x256_d1 h_S_)))⟩, ⟨S64x4x256x256, (extractStridedSlice S64x4x256x256 ![0, 4, 0, 0] (Host.divf (m ((c.tc : Thread nD τ).loc main_arg0)) (broadcastInDim S64x8x256x256 ![0, 1, 2, 3] bcast_S64x1x256x256_S64x8x256x256_0_1_2_3 (broadcastInDim S64x1x256x256 ![0, 2, 3] bcast_S64x256x256_S64x1x256x256_0_2_3 (Host.reduceAdd (Host.absf (m ((c.tc : Thread nD τ).loc main_arg0))) (constant S_ .f32 0x00000000#32) reducesTo_S64x8x256x256_S64x256x256_d1 h_S_)))) slices_S64x8x256x256_S64x4x256x256_0_4_0_0)⟩] concatenates_S64x4x256x256_S64x1x256x256_S64x4x256x256_S64x9x256x256_d1) slices_S64x9x256x256_S64x1x256x256_0_8_0_0) shapeCasts_S64x1x256x256_S64x256x256) (Host.dynamicSlice S64x256x256 (pad S64x258x258 ![0, 1, 1] ![0, 1, 1] ![0, 0, 0] (shapeCast _ (m ((c.tc : Thread nD τ).loc main_arg1)) shapeCasts_S64x1x256x256_S64x256x256) (sitofp .f32 (constantI S_ 32 0#32)) pads_S64x256x256_S64x258x258_000_110_110 h_S_) (fun k => (((![constantI S_ 32 0#32, constantI S_ 32 2#32, constantI S_ 32 2#32] : Fin 3 → (⟨S_, .i32⟩ : BufTy).Contents (Elt F))) k (Shape.Idx.first h_S_)).toInt) sliceFits_S64x258x258_S64x256x256)) (sitofp .f32 (constantI S_ 32 0#32)) pads_S64x256x256_S64x258x258_000_110_110 h_S_) (fun k => (((![constantI S_ 32 0#32, constantI S_ 32 0#32, constantI S_ 32 0#32] : Fin 3 → (⟨S_, .i32⟩ : BufTy).Contents (Elt F))) k (Shape.Idx.first h_S_)).toInt) sliceFits_S64x258x258_S64x256x256))

/-- The same term under the name that counts @main's returned values from 0. -/
abbrev res_out0 (m : (ℓ : Loc nD τ sig) → Buf (Elt F) ℓ) (c : Dev nD) : Buf (Elt F) ((c.tc : Thread nD τ).loc main_v85) := res_main_v85 m c

set_option maxRecDepth 8192 in
set_option maxHeartbeats 4000000 in
/-- The term built window by window is the term written out in full. -/
theorem t85_eq (m : (ℓ : Loc nD τ sig) → Buf (Elt F) ℓ) (c : Dev nD) : t85 (launchContents m c) = res_main_v85 m c := rfl

set_option maxRecDepth 8192 in
/-- On every device, for any float values, from any memory with zero counters: every weakly fair execution of @main
    ends with the result buffer at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = res_main_v85 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v85).trans (by simp only [after_ops]; exact (val3_main_v85 (launchContents m c)).trans (t85_eq m c)),
       (h c main_arg0).trans (by simp only [after_ops]; exact val3_main_arg0 (launchContents m c)),
       (h c main_arg1).trans (by simp only [after_ops]; exact val3_main_arg1 (launchContents m c)),
       (h c main_arg2).trans (by simp only [after_ops]; exact val3_main_arg2 (launchContents m c))⟩)
    (run_seq scopedRefs_eq scopedSems_eq defs main (fun _ => ops) main_eq (fun _ => ops_sub) m ρ (fun _ => ops_fresh))

end Cert.ReferenceIdeal.ValueP

end
-- ==== Proof.Spec.lean ====
/-
  The mathematics of this certificate, with no program in it.

  One image is eight affinity planes `a c` (c = 0 … 7), a current plane `cu` and a coarse plane `co`, each 256 × 256 over
  the extended reals. At a pixel the L1 norm over the planes is `absSum`, their plain sum `rawSum`, and plane `c`'s
  normalised weight is `wgt a c = a c / absSum a` (the quotient of PureOps/Ideal.lean: at a zero norm every plane is zero
  there and the quotient is the junk `⊥`, never `⊤`).

  `shY w o` and `shX w o` read a plane one step off along a row or a column, `o ∈ {0, 1, 2}` standing for the step `o - 1`:
  at `(y, x)` the value of `w` at row `y + o - 1` (column `x + o - 1`), and `0` where that leaves the image. So
  `shX (shY w oy) ox` at `(y, x)` is `w (y - dy) (x - dx)` with `(dy, dx) = (1 - oy, 1 - ox)`, zero outside: the shift both
  programs use, one by slicing and joining with a zero row or column, the other by a zero border and a window.

  `Kpix` is one program's value at a pixel: the coarse value times `1 - rawSum`, plus the current value times the SUM of the
  eight shifted weight planes. `Rpix` is the other's: nine taps added in order, the eight outer ones each the weight plane
  times the current plane gathered one step away, the product then scattered one step back (`tap`), the fifth the
  centre. The two are equal for finite inputs (Proof/Law.lean).
-/
import Idealize.ShloMosaic.PureOps.Ideal
import Idealize.ShloMosaic.Lib.ValueIdx

noncomputable section

namespace Cert.Cspn

open Idealize.ShloMosaic Idealize.ShloMosaic.ValueIdx

/-- A 256 × 256 plane, and the eight affinity planes of one image. -/
abbrev Plane := Fin 256 → Fin 256 → EReal
abbrev Planes := Fin 8 → Plane

/-- The L1 norm over the eight planes at a pixel. -/
def absSum (a : Planes) (y x : Fin 256) : EReal := ∑ c : Fin 8, max (a c y x) (-(a c y x))
/-- The plain sum over the eight planes at a pixel. -/
def rawSum (a : Planes) (y x : Fin 256) : EReal := ∑ c : Fin 8, a c y x
/-- Plane `c` normalised by the L1 norm. -/
def wgt (a : Planes) (c : Fin 8) : Plane := fun y x => Ideal.div (a c y x) (absSum a y x)

/-- The plane read `o - 1` rows further on, zero outside the image. -/
def shY (w : Plane) (o : Nat) : Plane := fun y x =>
  if h : 1 ≤ y.val + o ∧ y.val + o ≤ 256 then w ⟨y.val + o - 1, by omega⟩ x else 0
/-- The plane read `o - 1` columns further on, zero outside the image. -/
def shX (w : Plane) (o : Nat) : Plane := fun y x =>
  if h : 1 ≤ x.val + o ∧ x.val + o ≤ 256 then w y ⟨x.val + o - 1, by omega⟩ else 0

theorem shY_one (w : Plane) : shY w 1 = w := by
  funext y x
  have hy := y.isLt
  unfold shY
  rw [dif_pos ⟨by omega, by omega⟩]
  exact congrArg (fun t => w t x) (Fin.ext (Nat.add_sub_cancel _ _))

theorem shX_one (w : Plane) : shX w 1 = w := by
  funext y x
  have hx := x.isLt
  unfold shX
  rw [dif_pos ⟨by omega, by omega⟩]
  exact congrArg (fun t => w y t) (Fin.ext (Nat.add_sub_cancel _ _))

/-- Weight plane `c` shifted by `(oy - 1, ox - 1)`. -/
def shw (a : Planes) (c : Fin 8) (oy ox : Nat) : Plane := shX (shY (wgt a c) oy) ox

/-- The word `0x3F800000` read as an extended real (it is 1; nothing here needs its value). -/
abbrev one32 : EReal := Ideal.ofBits .f32 0x3F800000#32

/-- The first program's value at a pixel: `co · (1 - rawSum) + cu · Σ_c (shifted weight c)`. -/
def Kpix (a : Planes) (cu co : EReal) (y x : Fin 256) : EReal :=
  co * (one32 - rawSum a y x)
    + cu * ((((((((0 + shw a 0 2 2 y x) + shw a 1 2 1 y x) + shw a 2 2 0 y x) + shw a 3 1 2 y x)
        + shw a 4 1 0 y x) + shw a 5 0 2 y x) + shw a 6 0 1 y x) + shw a 7 0 0 y x)

/-- One outer tap of the second program: weight plane `c` times the current plane gathered at `(iy - 1, ix - 1)`, the
    product scattered by `(oy - 1, ox - 1)`. -/
def tap (a : Planes) (cu : Plane) (c : Fin 8) (oy ox iy ix : Nat) : Plane :=
  shX (shY (fun y x => wgt a c y x * shX (shY cu iy) ix y x) oy) ox

/-- The second program's value at a pixel: nine taps added in order, the fifth the centre. -/
def Rpix (a : Planes) (cu co : Plane) (y x : Fin 256) : EReal :=
  ((((((((0 + tap a cu 0 2 2 0 0 y x) + tap a cu 1 2 1 0 1 y x) + tap a cu 2 2 0 0 2 y x) + tap a cu 3 1 2 1 0 y x)
      + (one32 - rawSum a y x) * co y x)
      + tap a cu 4 1 0 1 2 y x) + tap a cu 5 0 2 2 0 y x) + tap a cu 6 0 1 2 1 y x) + tap a cu 7 0 0 2 2 y x

/-! ## Arrays of `B` images -/

abbrev SA (B : Nat) : Shape := ⟨4, ![B, 8, 256, 256]⟩
abbrev S1 (B : Nat) : Shape := ⟨4, ![B, 1, 256, 256]⟩

/-- Image `n`'s eight planes out of an array `[B, 8, 256, 256]`, and its one plane out of an array `[B, 1, 256, 256]`. -/
def planes {B : Nat} (A : (SA B).Idx → EReal) (n : Fin B) : Planes := fun c y x => A (ix4 n c y x)
def plane {B : Nat} (X : (S1 B).Idx → EReal) (n : Fin B) : Plane := fun y x => X (ix4 n 0 y x)

/-- The first program's result array, index by index. -/
def G {B : Nat} (A : (SA B).Idx → EReal) (cur coa : (S1 B).Idx → EReal) : (S1 B).Idx → EReal := fun i =>
  Kpix (planes A (i 0)) (plane cur (i 0) (i 2) (i 3)) (plane coa (i 0) (i 2) (i 3)) (i 2) (i 3)

/-- The second program's result array, index by index. -/
def Rf {B : Nat} (A : (SA B).Idx → EReal) (cur coa : (S1 B).Idx → EReal) : (S1 B).Idx → EReal := fun i =>
  Rpix (planes A (i 0)) (plane cur (i 0)) (plane coa (i 0)) (i 2) (i 3)

end Cert.Cspn

end
-- ==== Proof.Law.lean ====
/-
  The two pixel formulas of Spec.lean are equal on finite inputs.

  Three facts carry it. (1) A real factor distributes over a sum of two extended reals neither of which is ⊤: the only
  sums that break distributivity mix ⊤ and ⊥. (2) For real planes every normalised weight is below ⊤: at a zero norm
  each plane is ≤ 0 there, so the quotient is the junk ⊥, and off zero it is a real times the inverse of something, which
  is real; shifting keeps this, the value outside the image being 0. (3) Gathering the current plane one step away and
  scattering the product one step back returns the current plane at the pixel itself, so each outer tap is the shifted
  weight times the current value at the pixel, and zero where the shifted weight is zero.
-/
import proofs.«155739_j25074019074065_1_alg».proof.Proof.Spec
import Mathlib.Data.EReal.Basic
import Mathlib.Data.EReal.Operations
import Mathlib.Data.EReal.Inv
import Mathlib.Algebra.Order.BigOperators.Group.Finset

noncomputable section

namespace Cert.Cspn

open Idealize.ShloMosaic Idealize.ShloMosaic.ValueIdx

/-! ## A real factor over a sum without ⊤ -/

/-- The case of a first term ⊥: the sum is ⊥, and for a negative factor the product ⊤ absorbs the other product,
    which is not ⊥ because the other term is not ⊤. -/
theorem real_mul_bot_add (r : ℝ) {t : EReal} (ht : t ≠ ⊤) :
    (r : EReal) * (⊥ + t) = r * ⊥ + r * t := by
  rw [EReal.bot_add]
  rcases lt_trichotomy r 0 with h | h | h
  · rw [EReal.coe_mul_bot_of_neg h]
    induction t using EReal.rec with
    | bot => rw [EReal.coe_mul_bot_of_neg h]; rfl
    | coe b => rw [← EReal.coe_mul, EReal.top_add_coe]
    | top => exact absurd rfl ht
  · subst h
    rw [EReal.coe_zero, zero_mul, zero_mul, zero_add]
  · rw [EReal.coe_mul_bot_of_pos h, EReal.bot_add]

theorem real_mul_add (r : ℝ) {s t : EReal} (hs : s ≠ ⊤) (ht : t ≠ ⊤) :
    (r : EReal) * (s + t) = r * s + r * t := by
  induction s using EReal.rec with
  | bot => exact real_mul_bot_add r ht
  | top => exact absurd rfl hs
  | coe a =>
    induction t using EReal.rec with
    | bot => rw [add_comm, real_mul_bot_add r (EReal.coe_ne_top a), add_comm]
    | top => exact absurd rfl ht
    | coe b => rw [← EReal.coe_add, ← EReal.coe_mul, ← EReal.coe_mul, ← EReal.coe_mul, ← EReal.coe_add, mul_add]

/-! ## The weights are below ⊤ -/

/-- Every inverse is real: the inverse of an infinity is 0. -/
theorem inv_real (z : EReal) : ∃ q : ℝ, z⁻¹ = (q : EReal) := by
  induction z using EReal.rec with
  | bot => exact ⟨0, rfl⟩
  | top => exact ⟨0, rfl⟩
  | coe x => exact ⟨x⁻¹, (EReal.coe_inv x).symm⟩

/-- A real plane value is at most the L1 norm over the planes. -/
theorem le_absSum (a : Planes) (c : Fin 8) (y x : Fin 256) (ha : ∀ c, ∃ r : ℝ, a c y x = (r : EReal)) :
    a c y x ≤ absSum a y x := by
  unfold absSum
  have h0 : ∀ d ∈ (Finset.univ : Finset (Fin 8)), (0 : EReal) ≤ max (a d y x) (-(a d y x)) := by
    intro d _
    obtain ⟨r, hr⟩ := ha d
    rw [hr]
    rcases le_total 0 r with h | h
    · exact le_max_of_le_left (EReal.coe_nonneg.2 h)
    · exact le_max_of_le_right (by rw [← EReal.coe_neg]; exact EReal.coe_nonneg.2 (neg_nonneg.2 h))
  exact le_trans (le_max_left _ _)
    (Finset.single_le_sum (f := fun d => max (a d y x) (-(a d y x))) h0 (Finset.mem_univ c))

theorem wgt_ne_top (a : Planes) (c : Fin 8) (y x : Fin 256) (ha : ∀ c, ∃ r : ℝ, a c y x = (r : EReal)) :
    wgt a c y x ≠ ⊤ := by
  unfold wgt Ideal.div
  split_ifs with h0 hpos
  · exact absurd hpos (not_lt.2 (h0 ▸ le_absSum a c y x ha))
  · exact bot_ne_top
  · obtain ⟨r, hr⟩ := ha c
    obtain ⟨q, hq⟩ := inv_real (absSum a y x)
    rw [hr, hq, ← EReal.coe_mul]
    exact EReal.coe_ne_top _

/-! ## Shifts pointwise -/

theorem shY_pos (w : Plane) (o : Nat) (y x : Fin 256) (h : 1 ≤ y.val + o ∧ y.val + o ≤ 256) :
    shY w o y x = w ⟨y.val + o - 1, by omega⟩ x := dif_pos h

theorem shY_neg (w : Plane) (o : Nat) (y x : Fin 256) (h : ¬ (1 ≤ y.val + o ∧ y.val + o ≤ 256)) :
    shY w o y x = 0 := dif_neg h

theorem shX_pos (w : Plane) (o : Nat) (y x : Fin 256) (h : 1 ≤ x.val + o ∧ x.val + o ≤ 256) :
    shX w o y x = w y ⟨x.val + o - 1, by omega⟩ := dif_pos h

theorem shX_neg (w : Plane) (o : Nat) (y x : Fin 256) (h : ¬ (1 ≤ x.val + o ∧ x.val + o ≤ 256)) :
    shX w o y x = 0 := dif_neg h

theorem shY_ne_top {w : Plane} (hw : ∀ y x, w y x ≠ ⊤) (o : Nat) (y x : Fin 256) : shY w o y x ≠ ⊤ := by
  unfold shY
  split_ifs
  · exact hw _ _
  · exact EReal.zero_ne_top

theorem shX_ne_top {w : Plane} (hw : ∀ y x, w y x ≠ ⊤) (o : Nat) (y x : Fin 256) : shX w o y x ≠ ⊤ := by
  unfold shX
  split_ifs
  · exact hw _ _
  · exact EReal.zero_ne_top

theorem shw_ne_top (a : Planes) (ha : ∀ c y x, ∃ r : ℝ, a c y x = (r : EReal)) (c : Fin 8) (oy ox : Nat)
    (y x : Fin 256) : shw a c oy ox y x ≠ ⊤ :=
  shX_ne_top (shY_ne_top (fun y x => wgt_ne_top a c y x (fun d => ha d y x)) oy) ox y x

/-! ## Gather then scatter -/

/-- One step away and one step back: where the scatter's source pixel is inside the image, the gather it holds reads
    the pixel itself. -/
theorem gather_back (cu : Plane) (oy ox iy ix : Nat) (hy2 : iy + oy = 2) (hx2 : ix + ox = 2) (y x : Fin 256)
    (hy : 1 ≤ y.val + oy ∧ y.val + oy ≤ 256) (hx : 1 ≤ x.val + ox ∧ x.val + ox ≤ 256) :
    shX (shY cu iy) ix ⟨y.val + oy - 1, by omega⟩ ⟨x.val + ox - 1, by omega⟩ = cu y x := by
  have hyl := y.isLt
  have hxl := x.isLt
  have hx' : 1 ≤ (x.val + ox - 1) + ix ∧ (x.val + ox - 1) + ix ≤ 256 := by omega
  have hy' : 1 ≤ (y.val + oy - 1) + iy ∧ (y.val + oy - 1) + iy ≤ 256 := by omega
  rw [shX_pos _ _ _ _ hx', shY_pos _ _ _ _ hy']
  exact congrArg₂ cu (Fin.ext (by show y.val + oy - 1 + iy - 1 = y.val; omega))
    (Fin.ext (by show x.val + ox - 1 + ix - 1 = x.val; omega))

/-- An outer tap is the shifted weight times the current value at the pixel. -/
theorem tap_eq (a : Planes) (cu : Plane) (c : Fin 8) (oy ox iy ix : Nat) (hy2 : iy + oy = 2) (hx2 : ix + ox = 2)
    (y x : Fin 256) : tap a cu c oy ox iy ix y x = shw a c oy ox y x * cu y x := by
  unfold tap shw
  by_cases hx : 1 ≤ x.val + ox ∧ x.val + ox ≤ 256
  · by_cases hy : 1 ≤ y.val + oy ∧ y.val + oy ≤ 256
    · rw [shX_pos _ _ _ _ hx, shY_pos _ _ _ _ hy, shX_pos _ _ _ _ hx, shY_pos _ _ _ _ hy]
      show wgt a c _ _ * shX (shY cu iy) ix _ _ = _
      rw [gather_back cu oy ox iy ix hy2 hx2 y x hy hx]
    · rw [shX_pos _ _ _ _ hx, shY_neg _ _ _ _ hy, shX_pos _ _ _ _ hx, shY_neg _ _ _ _ hy, zero_mul]
  · rw [shX_neg _ _ _ _ hx, shX_neg _ _ _ _ hx, zero_mul]

/-! ## Nine terms regrouped -/

theorem nine_terms (r : ℝ) (m : EReal) {w0 w1 w2 w3 w4 w5 w6 w7 : EReal} (h0 : w0 ≠ ⊤) (h1 : w1 ≠ ⊤) (h2 : w2 ≠ ⊤)
    (h3 : w3 ≠ ⊤) (h4 : w4 ≠ ⊤) (h5 : w5 ≠ ⊤) (h6 : w6 ≠ ⊤) (h7 : w7 ≠ ⊤) :
    ((((((((0 + w0 * r) + w1 * r) + w2 * r) + w3 * r) + m) + w4 * r) + w5 * r) + w6 * r) + w7 * r
      = m + (r : EReal) * ((((((((0 + w0) + w1) + w2) + w3) + w4) + w5) + w6) + w7) := by
  have p0 := EReal.add_ne_top EReal.zero_ne_top h0
  have p1 := EReal.add_ne_top p0 h1
  have p2 := EReal.add_ne_top p1 h2
  have p3 := EReal.add_ne_top p2 h3
  have p4 := EReal.add_ne_top p3 h4
  have p5 := EReal.add_ne_top p4 h5
  have p6 := EReal.add_ne_top p5 h6
  rw [real_mul_add r p6 h7, real_mul_add r p5 h6, real_mul_add r p4 h5, real_mul_add r p3 h4,
    real_mul_add r p2 h3, real_mul_add r p1 h2, real_mul_add r p0 h1, real_mul_add r EReal.zero_ne_top h0, mul_zero,
    mul_comm (r : EReal) w0, mul_comm (r : EReal) w1, mul_comm (r : EReal) w2, mul_comm (r : EReal) w3,
    mul_comm (r : EReal) w4, mul_comm (r : EReal) w5, mul_comm (r : EReal) w6, mul_comm (r : EReal) w7]
  ac_rfl

/-! ## The pixel, and the arrays -/

theorem Rpix_eq_Kpix (a : Planes) (cu co : Plane) (y x : Fin 256)
    (ha : ∀ c y x, ∃ r : ℝ, a c y x = (r : EReal)) (hcu : ∃ r : ℝ, cu y x = (r : EReal)) :
    Rpix a cu co y x = Kpix a (cu y x) (co y x) y x := by
  obtain ⟨r, hr⟩ := hcu
  unfold Rpix Kpix
  rw [tap_eq a cu 0 2 2 0 0 rfl rfl y x, tap_eq a cu 1 2 1 0 1 rfl rfl y x, tap_eq a cu 2 2 0 0 2 rfl rfl y x,
    tap_eq a cu 3 1 2 1 0 rfl rfl y x, tap_eq a cu 4 1 0 1 2 rfl rfl y x, tap_eq a cu 5 0 2 2 0 rfl rfl y x,
    tap_eq a cu 6 0 1 2 1 rfl rfl y x, tap_eq a cu 7 0 0 2 2 rfl rfl y x, hr, mul_comm (co y x)]
  exact nine_terms r _ (shw_ne_top a ha 0 2 2 y x) (shw_ne_top a ha 1 2 1 y x) (shw_ne_top a ha 2 2 0 y x)
    (shw_ne_top a ha 3 1 2 y x) (shw_ne_top a ha 4 1 0 y x) (shw_ne_top a ha 5 0 2 y x) (shw_ne_top a ha 6 0 1 y x)
    (shw_ne_top a ha 7 0 0 y x)

/-- The two result arrays are equal when the affinity and current arrays are finite. -/
theorem Rf_eq_G {B : Nat} (A : (SA B).Idx → EReal) (cur coa : (S1 B).Idx → EReal)
    (hA : ∀ i, ∃ r : ℝ, A i = (r : EReal)) (hcur : ∀ i, ∃ r : ℝ, cur i = (r : EReal)) :
    Rf A cur coa = G A cur coa := by
  funext i
  unfold Rf G
  exact Rpix_eq_Kpix _ _ _ _ _ (fun _ _ _ => hA _) (hcur _)

end Cert.Cspn

end
-- ==== Proof.Finite.lean ====
import proofs.«155739_j25074019074065_1_alg».proof.Pre_finite_inputs
import proofs.«155739_j25074019074065_1_alg».proof.Proof.Gen.Pre_finite_inputs
import Idealize.ShloMosaic.PureOps.Ideal
import Idealize.ShloMosaic.Lib.ValueIdx
import Idealize.ShloMosaic.Lib.ReduceAll

/-
  Finiteness read back from the precondition.

  The precondition is, for each of the three float arrays, the conjunction over every index of the test
  `|x| < +∞`, the three conjunctions joined by `and`. Over the extended reals `|x|` is `max x (-x)` and the word
  `0x7F800000` is `⊤`; `max x (-x) < ⊤` fails at `⊤` and at `⊥` (there `-x = ⊤`), so it leaves exactly the reals.
-/

namespace Cert.Cspn

open Idealize.ShloMosaic Idealize.ShloMosaic.ValueIdx

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test `|x| < +∞` that came out 1 says `x` is real. -/
theorem real_of_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  refine real_of_abs_lt_top x ?_
  by_contra hn
  simp [hn] at h

/-- The result of a reduction over all axes has one index. -/
instance : Subsingleton Cert.Pre_finite_inputs.S_.Idx := ⟨fun a b => funext fun d => d.elim0⟩

theorem finite_of_pre [Cert.Pre_finite_inputs.Facts]
    (A : FVec Ideal Cert.Pre_finite_inputs.S64x8x256x256 .f32)
    (cur coa : FVec Ideal Cert.Pre_finite_inputs.S64x1x256x256 .f32)
    (h : Cert.Pre_finite_inputs.fn (F := Ideal) A cur coa = fun _ => 1#1) :
    (∀ i, ∃ r : ℝ, A i = (r : EReal)) ∧ (∀ i, ∃ r : ℝ, cur i = (r : EReal))
      ∧ (∀ i, ∃ r : ℝ, coa i = (r : EReal)) := by
  have h0 := congrFun h ix0
  unfold Cert.Pre_finite_inputs.fn at h0
  dsimp only at h0
  obtain ⟨h12, h3⟩ := IntOp.andi_eq_one.1 h0
  obtain ⟨h1, h2⟩ := IntOp.andi_eq_one.1 h12
  refine ⟨fun i => ?_, fun i => ?_, fun i => ?_⟩
  · exact real_of_olt_inf (A i) (Host.reduce_andi_all _ _ _ _ _ h1 i)
  · exact real_of_olt_inf (cur i) (Host.reduce_andi_all _ _ _ _ _ h2 i)
  · exact real_of_olt_inf (coa i) (Host.reduce_andi_all _ _ _ _ _ h3 i)

end Cert.Cspn
-- ==== Proof.KernelValue.lean ====
/-
  The first program's body as ONE function of its three loaded blocks, index by index.

  A block holds four images. The body slices plane `c` out of the affinity block, divides it by the L1 norm over the
  eight planes (a lane sum along the plane axis), and shifts the quotient by one row and / or one column: a shift is a
  slice that drops the first (last) row or column joined with a zero row or column behind (in front). Read at a pixel,
  "drop the first row and put a zero row behind" is `shY · 2` ("the row below, zero at the bottom edge"), "put a zero row in
  front and drop the last" is `shY · 0`; the same along a row with `shX`. The eight shifted quotients are added up from a
  zero plane, multiplied by the current block, and added to the coarse block times `1 - (plain sum over the planes)`.
  That is `Cspn.Kpix` of the image's planes, so the stored value is `Cspn.G` of the three blocks at batch extent 4.
-/
import proofs.«155739_j25074019074065_1_alg».proof.Proof.Gen.KernelIdeal.Skeleton
import proofs.«155739_j25074019074065_1_alg».proof.Proof.Spec
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Cert.Cspn Idealize.ShloMosaic Idealize.ShloMosaic.ValueIdx

/-- Image `b`'s plane of a block `[4, 256, 256]`. -/
def pl (w : S4x256x256.Idx → EReal) (b : Fin 4) : Plane := fun y x => w (ix3 b y x)

/-! ## The layout operations of the body, read at a pixel -/

section Layout
variable {α : Type}

/-- Dropping the unit plane axis: `[4, 1, 256, 256] → [4, 256, 256]` keeps image, row and column. -/
theorem cast_drop (v : S4x1x256x256.Idx → α) (h : S4x1x256x256.ShapeCasts S4x256x256) (b : Fin 4) (y x : Fin 256) :
    shapeCast S4x256x256 v h (ix3 b y x) = v (ix4 b 0 y x) :=
  shapeCast_apply v h _ _ (by
    rw [Shape.rowMajor_val_four, Shape.rowMajor_val_three]
    show ((b.val * 1 + 0) * 256 + y.val) * 256 + x.val = (b.val * 256 + y.val) * 256 + x.val
    omega)

/-- Adding it back. -/
theorem cast_add (v : S4x256x256.Idx → α) (h : S4x256x256.ShapeCasts S4x1x256x256) (b : Fin 4) (y x : Fin 256) :
    shapeCast S4x1x256x256 v h (ix4 b 0 y x) = v (ix3 b y x) :=
  shapeCast_apply v h _ _ (by
    rw [Shape.rowMajor_val_four, Shape.rowMajor_val_three]
    show (b.val * 256 + y.val) * 256 + x.val = ((b.val * 1 + 0) * 256 + y.val) * 256 + x.val
    omega)

/-- Plane `o` of the affinity block. -/
theorem chan (v : S4x8x256x256.Idx → α) (o : Nat) (ho : o < 8) (h : S4x8x256x256.Slices ![0, o, 0, 0] S4x1x256x256)
    (b : Fin 4) (y x : Fin 256) :
    extractStridedSlice S4x1x256x256 ![0, o, 0, 0] v h (ix4 b 0 y x) = v (ix4 b ⟨o, ho⟩ y x) :=
  extractStridedSlice_apply _ v h _ _ (fun a => match a with
    | ⟨0, _⟩ => by show b.val = 0 + b.val; omega
    | ⟨1, _⟩ => by show o = o + 0; omega
    | ⟨2, _⟩ => by show y.val = 0 + y.val; omega
    | ⟨3, _⟩ => by show x.val = 0 + x.val; omega)

end Layout

/-- Rows 1 … 255 with a zero row behind: the row below, zero at the bottom edge. -/
theorem rows_up (w : S4x256x256.Idx → EReal) (z : EReal) (hz : z = 0)
    (hs : S4x256x256.Slices ![0, 1, 0] S4x255x256) (hc : Shape.Concatenates [S4x255x256, S4x1x256] S4x256x256 1)
    (b : Fin 4) (y x : Fin 256) :
    concatenate S4x256x256 1 [⟨S4x255x256, extractStridedSlice S4x255x256 ![0, 1, 0] w hs⟩, ⟨S4x1x256, broadcast S4x1x256 z⟩] hc (ix3 b y x)
      = shY (pl w b) 2 y x := by
  have hy0 := y.isLt
  unfold shY
  by_cases hy : y.val + 2 ≤ 256
  · rw [dif_pos ⟨by omega, hy⟩]
    refine (concatenate_pair_apply_left (t := S4x256x256) (s₁ := S4x255x256) (s₂ := S4x1x256) (1 : Fin 3) _ _ hc (ix3 b y x) rfl
      (ix3 b (⟨y.val, by omega⟩ : Fin 255) x) (fun a => match a with
      | ⟨0, _⟩ => rfl | ⟨1, _⟩ => rfl | ⟨2, _⟩ => rfl)).trans ?_
    exact extractStridedSlice_apply _ w hs _ _ (fun a => match a with
      | ⟨0, _⟩ => by show b.val = 0 + b.val; omega
      | ⟨1, _⟩ => by show y.val + 2 - 1 = 1 + y.val; omega
      | ⟨2, _⟩ => by show x.val = 0 + x.val; omega)
  · rw [dif_neg (by omega)]
    refine (concatenate_pair_apply_right (t := S4x256x256) (s₁ := S4x255x256) (s₂ := S4x1x256) (1 : Fin 3) _ _ hc (ix3 b y x) rfl rfl
      (ix3 b (0 : Fin 1) x) (fun a ha => match a, ha with
      | ⟨0, _⟩, _ => rfl | ⟨1, _⟩, ha => absurd rfl ha | ⟨2, _⟩, _ => rfl) (by show 0 + 255 = y.val; omega)).trans ?_
    exact hz

/-- A zero row in front of rows 0 … 254: the row above, zero at the top edge. -/
theorem rows_down (w : S4x256x256.Idx → EReal) (z : EReal) (hz : z = 0)
    (hs : S4x256x256.Slices ![0, 0, 0] S4x255x256) (hc : Shape.Concatenates [S4x1x256, S4x255x256] S4x256x256 1)
    (b : Fin 4) (y x : Fin 256) :
    concatenate S4x256x256 1 [⟨S4x1x256, broadcast S4x1x256 z⟩, ⟨S4x255x256, extractStridedSlice S4x255x256 ![0, 0, 0] w hs⟩] hc (ix3 b y x)
      = shY (pl w b) 0 y x := by
  have hy0 := y.isLt
  unfold shY
  by_cases hy : 1 ≤ y.val + 0
  · rw [dif_pos ⟨hy, by omega⟩]
    refine (concatenate_pair_apply_right (t := S4x256x256) (s₁ := S4x1x256) (s₂ := S4x255x256) (1 : Fin 3) _ _ hc (ix3 b y x) rfl rfl
      (ix3 b (⟨y.val - 1, by omega⟩ : Fin 255) x) (fun a ha => match a, ha with
      | ⟨0, _⟩, _ => rfl | ⟨1, _⟩, ha => absurd rfl ha | ⟨2, _⟩, _ => rfl) (by show y.val - 1 + 1 = y.val; omega)).trans ?_
    exact extractStridedSlice_apply _ w hs _ _ (fun a => match a with
      | ⟨0, _⟩ => by show b.val = 0 + b.val; omega
      | ⟨1, _⟩ => by show y.val + 0 - 1 = 0 + (y.val - 1); omega
      | ⟨2, _⟩ => by show x.val = 0 + x.val; omega)
  · rw [dif_neg (by omega)]
    refine (concatenate_pair_apply_left (t := S4x256x256) (s₁ := S4x1x256) (s₂ := S4x255x256) (1 : Fin 3) _ _ hc (ix3 b y x) rfl
      (ix3 b (0 : Fin 1) x) (fun a => match a with
      | ⟨0, _⟩ => rfl | ⟨1, _⟩ => by show 0 = y.val; omega | ⟨2, _⟩ => rfl)).trans ?_
    exact hz

/-- Columns 1 … 255 with a zero column behind: the column to the right, zero at the right edge. -/
theorem cols_left (w : S4x256x256.Idx → EReal) (z : EReal) (hz : z = 0)
    (hs : S4x256x256.Slices ![0, 0, 1] S4x256x255) (hc : Shape.Concatenates [S4x256x255, S4x256x1] S4x256x256 2)
    (b : Fin 4) (y x : Fin 256) :
    concatenate S4x256x256 2 [⟨S4x256x255, extractStridedSlice S4x256x255 ![0, 0, 1] w hs⟩, ⟨S4x256x1, broadcast S4x256x1 z⟩] hc (ix3 b y x)
      = shX (pl w b) 2 y x := by
  have hx0 := x.isLt
  unfold shX
  by_cases hx : x.val + 2 ≤ 256
  · rw [dif_pos ⟨by omega, hx⟩]
    refine (concatenate_pair_apply_left (t := S4x256x256) (s₁ := S4x256x255) (s₂ := S4x256x1) (2 : Fin 3) _ _ hc (ix3 b y x) rfl
      (ix3 b y (⟨x.val, by omega⟩ : Fin 255)) (fun a => match a with
      | ⟨0, _⟩ => rfl | ⟨1, _⟩ => rfl | ⟨2, _⟩ => rfl)).trans ?_
    exact extractStridedSlice_apply _ w hs _ _ (fun a => match a with
      | ⟨0, _⟩ => by show b.val = 0 + b.val; omega
      | ⟨1, _⟩ => by show y.val = 0 + y.val; omega
      | ⟨2, _⟩ => by show x.val + 2 - 1 = 1 + x.val; omega)
  · rw [dif_neg (by omega)]
    refine (concatenate_pair_apply_right (t := S4x256x256) (s₁ := S4x256x255) (s₂ := S4x256x1) (2 : Fin 3) _ _ hc (ix3 b y x) rfl rfl
      (ix3 b y (0 : Fin 1)) (fun a ha => match a, ha with
      | ⟨0, _⟩, _ => rfl | ⟨1, _⟩, _ => rfl | ⟨2, _⟩, ha => absurd rfl ha) (by show 0 + 255 = x.val; omega)).trans ?_
    exact hz

/-- A zero column in front of columns 0 … 254: the column to the left, zero at the left edge. -/
theorem cols_right (w : S4x256x256.Idx → EReal) (z : EReal) (hz : z = 0)
    (hs : S4x256x256.Slices ![0, 0, 0] S4x256x255) (hc : Shape.Concatenates [S4x256x1, S4x256x255] S4x256x256 2)
    (b : Fin 4) (y x : Fin 256) :
    concatenate S4x256x256 2 [⟨S4x256x1, broadcast S4x256x1 z⟩, ⟨S4x256x255, extractStridedSlice S4x256x255 ![0, 0, 0] w hs⟩] hc (ix3 b y x)
      = shX (pl w b) 0 y x := by
  have hx0 := x.isLt
  unfold shX
  by_cases hx : 1 ≤ x.val + 0
  · rw [dif_pos ⟨hx, by omega⟩]
    refine (concatenate_pair_apply_right (t := S4x256x256) (s₁ := S4x256x1) (s₂ := S4x256x255) (2 : Fin 3) _ _ hc (ix3 b y x) rfl rfl
      (ix3 b y (⟨x.val - 1, by omega⟩ : Fin 255)) (fun a ha => match a, ha with
      | ⟨0, _⟩, _ => rfl | ⟨1, _⟩, _ => rfl | ⟨2, _⟩, ha => absurd rfl ha) (by show x.val - 1 + 1 = x.val; omega)).trans ?_
    exact extractStridedSlice_apply _ w hs _ _ (fun a => match a with
      | ⟨0, _⟩ => by show b.val = 0 + b.val; omega
      | ⟨1, _⟩ => by show y.val = 0 + y.val; omega
      | ⟨2, _⟩ => by show x.val + 0 - 1 = 0 + (x.val - 1); omega)
  · rw [dif_neg (by omega)]
    refine (concatenate_pair_apply_left (t := S4x256x256) (s₁ := S4x256x1) (s₂ := S4x256x255) (2 : Fin 3) _ _ hc (ix3 b y x) rfl
      (ix3 b y (0 : Fin 1)) (fun a => match a with
      | ⟨0, _⟩ => rfl | ⟨1, _⟩ => rfl | ⟨2, _⟩ => by show 0 = x.val; omega)).trans ?_
    exact hz

/-! ## The sums over the eight planes, the quotients, the stored value -/

section Values
variable (v0 : FVec Ideal S4x8x256x256 .f32)

/-- The source index of a lane sum along the plane axis: image, the plane summed over, row, column. -/
theorem lift_eq (b : Fin 4) (y x : Fin 256) (k : Fin 8) :
    reduces_S4x8x256x256_S4x256x256.lift (ix3 b y x) k = ix4 b k y x :=
  funext fun a => Fin.ext (by match a with | ⟨0, _⟩ => rfl | ⟨1, _⟩ => rfl | ⟨2, _⟩ => rfl | ⟨3, _⟩ => rfl)

/-- The lane sum of the absolute values along the plane axis is the L1 norm. -/
theorem norm_at (b : Fin 4) (y x : Fin 256) :
    k0_pay4 (F := Ideal) v0 (ix3 b y x) = absSum (planes (B := 4) v0 b) y x := by
  unfold k0_pay4
  refine (Ideal.multiReduction_add_single (absf v0) 0x00000000#32 reduces_S4x8x256x256_S4x256x256 (.inl rfl) rfl (ix3 b y x)).trans ?_
  exact Finset.sum_congr rfl fun k _ => congrArg (fun i => max (v0 i) (-(v0 i))) (lift_eq b y x k)

/-- One minus the plain lane sum. -/
theorem centre_at (b : Fin 4) (y x : Fin 256) :
    k0_pay5 (F := Ideal) v0 (ix3 b y x) = one32 - rawSum (planes (B := 4) v0 b) y x := by
  unfold k0_pay5
  show one32 - multiReduction (F := Ideal) .add [1] S4x256x256 v0 0x00000000#32 reduces_S4x8x256x256_S4x256x256 (.inl rfl) rfl (ix3 b y x) = _
  refine congrArg (fun t => one32 - t) ?_
  refine (Ideal.multiReduction_add_single v0 0x00000000#32 reduces_S4x8x256x256_S4x256x256 (.inl rfl) rfl (ix3 b y x)).trans ?_
  exact Finset.sum_congr rfl fun k _ => congrArg v0 (lift_eq b y x k)

/-- Plane `o` of the block over a norm plane `v6` that is the L1 norm on image `b`: the weight plane. -/
theorem quot_pl (o : Nat) (ho : o < 8) (hsl : S4x8x256x256.Slices ![0, o, 0, 0] S4x1x256x256)
    (hcast : S4x1x256x256.ShapeCasts S4x256x256) (v6 : FVec Ideal S4x256x256 .f32) (b : Fin 4)
    (hv6 : ∀ y x, v6 (ix3 b y x) = absSum (planes (B := 4) v0 b) y x) :
    pl (divf (shapeCast S4x256x256 (extractStridedSlice S4x1x256x256 ![0, o, 0, 0] v0 hsl) hcast) v6) b
      = wgt (planes (B := 4) v0 b) ⟨o, ho⟩ := by
  funext y x
  show Ideal.div (shapeCast S4x256x256 (extractStridedSlice S4x1x256x256 ![0, o, 0, 0] v0 hsl) hcast (ix3 b y x)) (v6 (ix3 b y x)) = _
  rw [cast_drop, chan _ o ho, hv6]
  rfl

end Values

/-! ## The shifts with the body's zero word, at a pixel and as planes -/

theorem zero32 : (Scalar.ofBits (F := Ideal) .f32 0x00000000#32 : EReal) = 0 := Ideal.ofBits_zero_f32

section Shifts
variable (w : FVec Ideal S4x256x256 .f32) (b : Fin 4)

theorem rows_up_at (hs : S4x256x256.Slices ![0, 1, 0] S4x255x256) (hc : Shape.Concatenates [S4x255x256, S4x1x256] S4x256x256 1) (y x : Fin 256) :
    concatenate S4x256x256 1 [⟨S4x255x256, extractStridedSlice S4x255x256 ![0, 1, 0] w hs⟩, ⟨S4x1x256, broadcast S4x1x256 (Scalar.ofBits (F := Ideal) .f32 0x00000000#32)⟩] hc (ix3 b y x)
      = shY (pl w b) 2 y x := rows_up w _ zero32 hs hc b y x
theorem rows_down_at (hs : S4x256x256.Slices ![0, 0, 0] S4x255x256) (hc : Shape.Concatenates [S4x1x256, S4x255x256] S4x256x256 1) (y x : Fin 256) :
    concatenate S4x256x256 1 [⟨S4x1x256, broadcast S4x1x256 (Scalar.ofBits (F := Ideal) .f32 0x00000000#32)⟩, ⟨S4x255x256, extractStridedSlice S4x255x256 ![0, 0, 0] w hs⟩] hc (ix3 b y x)
      = shY (pl w b) 0 y x := rows_down w _ zero32 hs hc b y x
theorem cols_left_at (hs : S4x256x256.Slices ![0, 0, 1] S4x256x255) (hc : Shape.Concatenates [S4x256x255, S4x256x1] S4x256x256 2) (y x : Fin 256) :
    concatenate S4x256x256 2 [⟨S4x256x255, extractStridedSlice S4x256x255 ![0, 0, 1] w hs⟩, ⟨S4x256x1, broadcast S4x256x1 (Scalar.ofBits (F := Ideal) .f32 0x00000000#32)⟩] hc (ix3 b y x)
      = shX (pl w b) 2 y x := cols_left w _ zero32 hs hc b y x
theorem cols_right_at (hs : S4x256x256.Slices ![0, 0, 0] S4x256x255) (hc : Shape.Concatenates [S4x256x1, S4x256x255] S4x256x256 2) (y x : Fin 256) :
    concatenate S4x256x256 2 [⟨S4x256x1, broadcast S4x256x1 (Scalar.ofBits (F := Ideal) .f32 0x00000000#32)⟩, ⟨S4x256x255, extractStridedSlice S4x256x255 ![0, 0, 0] w hs⟩] hc (ix3 b y x)
      = shX (pl w b) 0 y x := cols_right w _ zero32 hs hc b y x

theorem rows_up_pl (hs : S4x256x256.Slices ![0, 1, 0] S4x255x256) (hc : Shape.Concatenates [S4x255x256, S4x1x256] S4x256x256 1) :
    pl (concatenate S4x256x256 1 [⟨S4x255x256, extractStridedSlice S4x255x256 ![0, 1, 0] w hs⟩, ⟨S4x1x256, broadcast S4x1x256 (Scalar.ofBits (F := Ideal) .f32 0x00000000#32)⟩] hc) b
      = shY (pl w b) 2 := funext fun y => funext fun x => rows_up_at w b hs hc y x
theorem rows_down_pl (hs : S4x256x256.Slices ![0, 0, 0] S4x255x256) (hc : Shape.Concatenates [S4x1x256, S4x255x256] S4x256x256 1) :
    pl (concatenate S4x256x256 1 [⟨S4x1x256, broadcast S4x1x256 (Scalar.ofBits (F := Ideal) .f32 0x00000000#32)⟩, ⟨S4x255x256, extractStridedSlice S4x255x256 ![0, 0, 0] w hs⟩] hc) b
      = shY (pl w b) 0 := funext fun y => funext fun x => rows_down_at w b hs hc y x

end Shifts

/-! ## The stored value -/

section Stored
variable (v0 : FVec Ideal S4x8x256x256 .f32)

/-- The first three shifted weight planes, added up from the zero plane. -/
theorem head_at (b : Fin 4) (y x : Fin 256) :
    k0_pay6 (F := Ideal) v0 (ix3 b y x)
      = ((0 + shw (planes (B := 4) v0 b) 0 2 2 y x) + shw (planes (B := 4) v0 b) 1 2 1 y x) + shw (planes (B := 4) v0 b) 2 2 0 y x := by
  unfold k0_pay6
  simp only [addf_apply, broadcast_apply]
  rw [cols_left_at, rows_up_pl, rows_up_at, cols_right_at, rows_up_pl]
  rw [quot_pl v0 0 (by decide) _ _ _ b (norm_at v0 b), quot_pl v0 1 (by decide) _ _ _ b (norm_at v0 b),
    quot_pl v0 2 (by decide) _ _ _ b (norm_at v0 b), zero32]
  unfold shw
  rw [shX_one]
  rfl

/-- The stored value: the coarse block times `1 - rawSum` plus the current block times the five remaining shifted weight
    planes added to what the first part of the body handed over (`v37`). -/
theorem tail_at (v2 v4 v6 v9 v37 : FVec Ideal S4x256x256 .f32) (b : Fin 4)
    (hv6 : ∀ y x, v6 (ix3 b y x) = absSum (planes (B := 4) v0 b) y x) (y x : Fin 256) :
    k0_pay1 (F := Ideal) v0 v2 v4 v6 v9 v37 (ix4 b 0 y x)
      = v4 (ix3 b y x) * v9 (ix3 b y x)
        + v2 (ix3 b y x) * (((((v37 (ix3 b y x) + shw (planes (B := 4) v0 b) 3 1 2 y x) + shw (planes (B := 4) v0 b) 4 1 0 y x)
            + shw (planes (B := 4) v0 b) 5 0 2 y x) + shw (planes (B := 4) v0 b) 6 0 1 y x) + shw (planes (B := 4) v0 b) 7 0 0 y x) := by
  unfold k0_pay1
  rw [cast_add]
  simp only [addf_apply, mulf_apply]
  rw [cols_left_at, cols_right_at, cols_left_at, cols_right_at, rows_down_pl, rows_down_pl, rows_down_at]
  rw [quot_pl v0 3 (by decide) _ _ v6 b hv6, quot_pl v0 4 (by decide) _ _ v6 b hv6, quot_pl v0 5 (by decide) _ _ v6 b hv6,
    quot_pl v0 6 (by decide) _ _ v6 b hv6, quot_pl v0 7 (by decide) _ _ v6 b hv6]
  simp only [shw, shY_one, shX_one]
  rfl

/-- THE BODY'S STORED BLOCK is `Cspn.G` of its three loaded blocks (four images). -/
theorem payload_eq (v1 v3 : FVec Ideal S4x1x256x256 .f32) :
    k0_pay1 (F := Ideal) v0 (k0_pay2 v1) (k0_pay3 v3) (k0_pay4 v0) (k0_pay5 v0) (k0_pay6 v0) = G (B := 4) v0 v1 v3 := by
  funext j
  obtain ⟨b, u, y, x, rfl⟩ : ∃ (b : Fin 4) (u : Fin 1) (y x : Fin 256), j = ix4 b u y x := ⟨j 0, j 1, j 2, j 3, eq_ix4 j⟩
  obtain rfl : u = 0 := Subsingleton.elim _ _
  rw [tail_at v0 _ _ _ _ _ b (norm_at v0 b) y x, head_at, centre_at]
  unfold k0_pay2 k0_pay3
  rw [cast_drop, cast_drop]
  rfl

end Stored

end Cert.KernelIdeal.KValue

end
-- ==== Proof.KernelRun.lean ====
import proofs.«155739_j25074019074065_1_alg».proof.Proof.Gen.KernelIdeal.Value
import proofs.«155739_j25074019074065_1_alg».proof.Proof.KernelValue
import proofs.«155739_j25074019074065_1_alg».proof.Proof.Spec

noncomputable section

namespace Cert.KernelIdeal.KRun

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## A block of four images -/

/-- The result array at an index depends on the three arrays through one image only: if image `b` of arrays of four
    images is image `n` of arrays of sixty-four, plane by plane, the results there agree pixel by pixel. -/
theorem G_block (A : (Cspn.SA 64).Idx → EReal) (cur coa : (Cspn.S1 64).Idx → EReal)
    (A' : (Cspn.SA 4).Idx → EReal) (cur' coa' : (Cspn.S1 4).Idx → EReal) (n : Fin 64) (b : Fin 4)
    (hA : ∀ c y x, A' (ix4 b c y x) = A (ix4 n c y x))
    (hcur : ∀ y x, cur' (ix4 b 0 y x) = cur (ix4 n 0 y x))
    (hcoa : ∀ y x, coa' (ix4 b 0 y x) = coa (ix4 n 0 y x)) (y x : Fin 256) :
    Cspn.G A' cur' coa' (ix4 b 0 y x) = Cspn.G A cur coa (ix4 n 0 y x) := by
  have hp : Cspn.planes A' b = Cspn.planes A n := by funext c y x; exact hA c y x
  have h1 : Cspn.plane cur' b = Cspn.plane cur n := by funext y x; exact hcur y x
  have h2 : Cspn.plane coa' b = Cspn.plane coa n := by funext y x; exact hcoa y x
  show Cspn.Kpix (Cspn.planes A' b) (Cspn.plane cur' b y x) (Cspn.plane coa' b y x) y x
    = Cspn.Kpix (Cspn.planes A n) (Cspn.plane cur n y x) (Cspn.plane coa n y x) y x
  rw [hp, h1, h2]

/-! ## The windows' blocks in their arrays -/

theorem hz : (![0, 0, 0, 0] : Fin 4 → Nat) = fun _ => 0 := funext fun a => by fin_cases a <;> rfl

/-- Grid point `t` of the sixteen has fewer than sixteen before it. -/
theorem t_lt (t : Fin cfg0.N) : t.val < 16 := lt_of_lt_of_eq t.isLt N_0

/-- The four index maps, decided over the sixteen grid points: point `t` takes block `t` along the images and the
    one block there is along every other axis. -/
theorem idx_facts : ∀ t : Fin cfg0.N,
    win0_0.index t = ![t.val, 0, 0, 0] ∧ win0_1.index t = ![t.val, 0, 0, 0]
      ∧ win0_2.index t = ![t.val, 0, 0, 0] ∧ win0_3.index t = ![t.val, 0, 0, 0] :=
  (by decide +kernel : ∀ t : Fin grid0.N, _)

/-- Image `b` of the affinity block at point `t` is image `4 t + b` of the array. -/
theorem emb_blk0 (t : Fin cfg0.N) (b : Fin 4) (c : Fin 8) (y x : Fin 256) (h : 4 * t.val + b.val < 64) :
    ((cfg0.win 0).blk t).view.emb (ix4 b c y x) = ix4 (⟨4 * t.val + b.val, h⟩ : Fin 64) c y x := by
  obtain ⟨e, -, -, -⟩ := idx_facts t
  have q0 : win0_0.index t (0 : Fin 4) = t.val := congrFun e 0
  have q1 : win0_0.index t (1 : Fin 4) = 0 := congrFun e 1
  have q2 : win0_0.index t (2 : Fin 4) = 0 := congrFun e 2
  have q3 : win0_0.index t (3 : Fin 4) = 0 := congrFun e 3
  funext a; apply Fin.ext
  match a with
  | ⟨0, _⟩ => show win0_0.index t (0 : Fin 4) * 4 + 1 * b.val = 4 * t.val + b.val; omega
  | ⟨1, _⟩ => show win0_0.index t (1 : Fin 4) * 8 + 1 * c.val = c.val; omega
  | ⟨2, _⟩ => show win0_0.index t (2 : Fin 4) * 256 + 1 * y.val = y.val; omega
  | ⟨3, _⟩ => show win0_0.index t (3 : Fin 4) * 256 + 1 * x.val = x.val; omega

/-- Image `b` of the current-plane block at point `t` is image `4 t + b` of the array. -/
theorem emb_blk1 (t : Fin cfg0.N) (b : Fin 4) (y x : Fin 256) (h : 4 * t.val + b.val < 64) :
    ((cfg0.win 1).blk t).view.emb (ix4 b (0 : Fin 1) y x) = ix4 (⟨4 * t.val + b.val, h⟩ : Fin 64) (0 : Fin 1) y x := by
  obtain ⟨-, e, -, -⟩ := idx_facts t
  have q0 : win0_1.index t (0 : Fin 4) = t.val := congrFun e 0
  have q1 : win0_1.index t (1 : Fin 4) = 0 := congrFun e 1
  have q2 : win0_1.index t (2 : Fin 4) = 0 := congrFun e 2
  have q3 : win0_1.index t (3 : Fin 4) = 0 := congrFun e 3
  funext a; apply Fin.ext
  match a with
  | ⟨0, _⟩ => show win0_1.index t (0 : Fin 4) * 4 + 1 * b.val = 4 * t.val + b.val; omega
  | ⟨1, _⟩ => show win0_1.index t (1 : Fin 4) * 1 + 1 * 0 = 0; omega
  | ⟨2, _⟩ => show win0_1.index t (2 : Fin 4) * 256 + 1 * y.val = y.val; omega
  | ⟨3, _⟩ => show win0_1.index t (3 : Fin 4) * 256 + 1 * x.val = x.val; omega

/-- Image `b` of the coarse-plane block at point `t` is image `4 t + b` of the array. -/
theorem emb_blk2 (t : Fin cfg0.N) (b : Fin 4) (y x : Fin 256) (h : 4 * t.val + b.val < 64) :
    ((cfg0.win 2).blk t).view.emb (ix4 b (0 : Fin 1) y x) = ix4 (⟨4 * t.val + b.val, h⟩ : Fin 64) (0 : Fin 1) y x := by
  obtain ⟨-, -, e, -⟩ := idx_facts t
  have q0 : win0_2.index t (0 : Fin 4) = t.val := congrFun e 0
  have q1 : win0_2.index t (1 : Fin 4) = 0 := congrFun e 1
  have q2 : win0_2.index t (2 : Fin 4) = 0 := congrFun e 2
  have q3 : win0_2.index t (3 : Fin 4) = 0 := congrFun e 3
  funext a; apply Fin.ext
  match a with
  | ⟨0, _⟩ => show win0_2.index t (0 : Fin 4) * 4 + 1 * b.val = 4 * t.val + b.val; omega
  | ⟨1, _⟩ => show win0_2.index t (1 : Fin 4) * 1 + 1 * 0 = 0; omega
  | ⟨2, _⟩ => show win0_2.index t (2 : Fin 4) * 256 + 1 * y.val = y.val; omega
  | ⟨3, _⟩ => show win0_2.index t (3 : Fin 4) * 256 + 1 * x.val = x.val; omega

/-- Image `b` of the result block at point `t` is image `4 t + b` of the array. -/
theorem emb_blk3 (t : Fin cfg0.N) (b : Fin 4) (y x : Fin 256) (h : 4 * t.val + b.val < 64) :
    ((cfg0.win 3).blk t).view.emb (ix4 b (0 : Fin 1) y x) = ix4 (⟨4 * t.val + b.val, h⟩ : Fin 64) (0 : Fin 1) y x := by
  obtain ⟨-, -, -, e⟩ := idx_facts t
  have q0 : win0_3.index t (0 : Fin 4) = t.val := congrFun e 0
  have q1 : win0_3.index t (1 : Fin 4) = 0 := congrFun e 1
  have q2 : win0_3.index t (2 : Fin 4) = 0 := congrFun e 2
  have q3 : win0_3.index t (3 : Fin 4) = 0 := congrFun e 3
  funext a; apply Fin.ext
  match a with
  | ⟨0, _⟩ => show win0_3.index t (0 : Fin 4) * 4 + 1 * b.val = 4 * t.val + b.val; omega
  | ⟨1, _⟩ => show win0_3.index t (1 : Fin 4) * 1 + 1 * 0 = 0; omega
  | ⟨2, _⟩ => show win0_3.index t (2 : Fin 4) * 256 + 1 * y.val = y.val; omega
  | ⟨3, _⟩ => show win0_3.index t (3 : Fin 4) * 256 + 1 * x.val = x.val; omega

/-! ## What a grid point writes back -/

/-- Grid point `t` writes back block `t` of the result array `G` of the three argument arrays. -/
theorem flushed_eq (c : Dev nD) (t : Fin cfg0.N) :
    (dats m 0 c).flushed 3 t = ((cfg0.win 3).blk t).view.read (Elt Ideal)
      (Cert.Cspn.G (B := 64) (V m c main_arg0) (V m c main_arg1) (V m c main_arg2)) := by
  rw [Value.flushed3]
  unfold out0_3
  rw [View.canon_unit_zero hz]
  simp only [View.ld_unit_zero (S := S4x8x256x256) hz, View.ld_unit_zero (S := S4x1x256x256) hz]
  rw [KValue.payload_eq]
  funext j
  obtain ⟨b, u, y, x, rfl⟩ : ∃ (b : Fin 4) (u : Fin 1) (y x : Fin 256), j = ix4 b u y x := ⟨_, _, _, _, eq_ix4 j⟩
  obtain rfl : u = 0 := Subsingleton.elim _ _
  have ht := t_lt t
  have hn : 4 * t.val + b.val < 64 := by have := b.isLt; omega
  show Cert.Cspn.G (B := 4) (iblk m c 0 t) (iblk m c 1 t) (iblk m c 2 t) (ix4 b 0 y x)
    = Cert.Cspn.G (B := 64) (V m c main_arg0) (V m c main_arg1) (V m c main_arg2)
        (((cfg0.win 3).blk t).view.emb (ix4 b 0 y x))
  rw [emb_blk3 t b y x hn]
  refine G_block (V m c main_arg0) (V m c main_arg1) (V m c main_arg2) (iblk m c 0 t) (iblk m c 1 t) (iblk m c 2 t)
    ⟨4 * t.val + b.val, hn⟩ b (fun c' y' x' => ?_) (fun y' x' => ?_) (fun y' x' => ?_) y x
  · show V m c main_arg0 (((cfg0.win 0).blk t).view.emb (ix4 b c' y' x')) = _
    rw [emb_blk0 t b c' y' x' hn]
  · show V m c main_arg1 (((cfg0.win 1).blk t).view.emb (ix4 b 0 y' x')) = _
    rw [emb_blk1 t b y' x' hn]
  · show V m c main_arg2 (((cfg0.win 2).blk t).view.emb (ix4 b 0 y' x')) = _
    rw [emb_blk2 t b y' x' hn]

/-! ## The blocks cover the array -/

/-- An index of the result array is in point `t`'s block iff each coordinate is in the block's range on its axis. -/
theorem mem_blk (t : Fin cfg0.N) (i : S64x1x256x256.Idx) :
    i ∈ ((cfg0.win 3).blk t).view.set ↔ ∀ a : Fin 4, win0_3.index t a * S4x1x256x256.size a ≤ (i a).val
      ∧ (i a).val < win0_3.index t a * S4x1x256x256.size a + S4x1x256x256.size a := by
  show i ∈ ((View.whole main_v0).slice (win0_3.rect t)).set ↔ _
  rw [View.set_slice_whole, Rect.mem_set_unit]
  exact Iff.rfl

/-- Every index of the result array is in the block of the point that holds its image: point `i₀ / 4`. -/
theorem cover (i : S64x1x256x256.Idx) :
    ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 256 := (i 2).isLt
  have hi3 : (i 3).val < 256 := (i 3).isLt
  have hN : (i 0).val / 4 < cfg0.N := lt_of_lt_of_eq (by omega : (i 0).val / 4 < 16) N_0.symm
  refine ⟨⟨(i 0).val / 4, hN⟩, flush0_3 _, ?_⟩
  rw [mem_blk]
  obtain ⟨-, -, -, e⟩ := idx_facts ⟨(i 0).val / 4, hN⟩
  have q0 : win0_3.index ⟨(i 0).val / 4, hN⟩ (0 : Fin 4) = (i 0).val / 4 := congrFun e 0
  have q1 : win0_3.index ⟨(i 0).val / 4, hN⟩ (1 : Fin 4) = 0 := congrFun e 1
  have q2 : win0_3.index ⟨(i 0).val / 4, hN⟩ (2 : Fin 4) = 0 := congrFun e 2
  have q3 : win0_3.index ⟨(i 0).val / 4, hN⟩ (3 : Fin 4) = 0 := congrFun e 3
  intro a
  match a with
  | ⟨0, _⟩ =>
    show win0_3.index ⟨(i 0).val / 4, hN⟩ (0 : Fin 4) * 4 ≤ (i 0).val
      ∧ (i 0).val < win0_3.index ⟨(i 0).val / 4, hN⟩ (0 : Fin 4) * 4 + 4
    omega
  | ⟨1, _⟩ =>
    show win0_3.index ⟨(i 0).val / 4, hN⟩ (1 : Fin 4) * 1 ≤ (i 1).val
      ∧ (i 1).val < win0_3.index ⟨(i 0).val / 4, hN⟩ (1 : Fin 4) * 1 + 1
    omega
  | ⟨2, _⟩ =>
    show win0_3.index ⟨(i 0).val / 4, hN⟩ (2 : Fin 4) * 256 ≤ (i 2).val
      ∧ (i 2).val < win0_3.index ⟨(i 0).val / 4, hN⟩ (2 : Fin 4) * 256 + 256
    omega
  | ⟨3, _⟩ =>
    show win0_3.index ⟨(i 0).val / 4, hN⟩ (3 : Fin 4) * 256 ≤ (i 3).val
      ∧ (i 3).val < win0_3.index ⟨(i 0).val / 4, hN⟩ (3 : Fin 4) * 256 + 256
    omega

/-! ## The array after the run -/

/-- After the sixteen points the result array is `G` of the three argument arrays as launched. -/
theorem final (c : Dev nD) : (dats m 0 c).arrAt 3 cfg0.N
    = Cert.Cspn.G (B := 64) (m ((c : Thread nD τ).loc main_arg0)) (m ((c : Thread nD τ).loc main_arg1))
        (m ((c : Thread nD τ).loc main_arg2)) :=
  (dats m 0 c).arrAt_eq_of_cover 3
    (Cert.Cspn.G (B := 64) (V m c main_arg0) (V m c main_arg1) (V m c main_arg2))
    (fun t _ => flushed_eq m c t) cover

/-- The run: the result array is `G` of the three argument arrays, which are left as launched. -/
theorem run : θ_run defs (onTc (τ := τ) (main (F := Ideal))) ⟨m, fun _ => 0, ρ⟩ fun r => ∀ c : Dev nD,
      r.2.mem ((c : Thread nD τ).loc main_v0)
        = Cert.Cspn.G (B := 64) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KRun

end
-- ==== Proof.RefValue.lean ====
/-
  The second program read stage by stage, down to `Rf`.

  Every stage of the program is a function of the three arrays, and an elementwise or layout stage at an index is its
  operands at an index. What is added here is the reading of the stages that move data: the join of the nine weight
  planes, the zero border, and the window cut out of the bordered array.

  * A zero border of width one around each 256 × 256 plane followed by the 256 × 256 window at `(oy, ox)`,
    `oy, ox ∈ {0, 1, 2}`, reads at `(y, x)` the plane at `(y + oy - 1, x + ox - 1)` and `0` where that leaves the
    plane: it is `shX (shY · oy) ox` (`shift_read`). The window's start is a triple of integer constants inside the
    bordered array, so the clamp of the start is the identity.
  * The nine planes joined along the channel axis are: planes 0 … 3 the first four normalised weights, plane 4 the
    complement `1 - Σ_c a c`, planes 5 … 8 the last four normalised weights (`v11_outer`, `v11_centre`). The
    normalised weight of channel `c` at a pixel is `a c / Σ_c |a c|`, the absolute value being `max t (-t)` and the
    zero word the real `0` that starts each sum.
  * An outer tap is then the window at `(oy, ox)` of the bordered product of a weight plane with the window at
    `(iy, ix)` of the bordered current plane: `tap`. The centre tap's window is at `(1, 1)`, the identity.
  * The nine taps are added in order onto a zero plane, which is `Rpix`.
-/
import proofs.«155739_j25074019074065_1_alg».proof.Proof.RefReadP
import proofs.«155739_j25074019074065_1_alg».proof.Proof.Spec
import Idealize.ShloMosaic.Lib.Pipeline.Value
import Idealize.ShloMosaic.Lib.KernelVsHost
import Idealize.ShloMosaic.Lib.DynamicIndex
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.Cspn Idealize.ShloMosaic Idealize.ShloMosaic.ValueIdx

/-! ## A zero border and a window -/

/-- The window at `(0, oy, ox)` of an array of planes bordered by one ring of the value `v = 0`, read at image `n`,
    pixel `(y, x)`: the plane at `(y + oy - 1, x + ox - 1)`, and `0` outside it. The window is inside the bordered
    array (`oy, ox ≤ 2`), so it is the static block at that offset; the block reads the bordered array at
    `(y + oy, x + ox)`, which is inside the plane exactly when both coordinates are in `1 … 256`. -/
theorem shift_read {u : Shape} (X : S64x256x256.Idx → EReal) (v : u.Idx → EReal)
    (hp : S64x256x256.Pads (![0, 1, 1] : Fin 3 → Nat) ![0, 1, 1] ![0, 0, 0] S64x258x258) (hu : 0 < u.numel)
    (hv : v (Shape.Idx.first hu) = 0)
    (start : Fin 3 → Int) (hfit : S64x258x258.Slices (fun _ => 0) S64x256x256)
    (oy ox : Nat) (hoy : oy ≤ 2) (hox : ox ≤ 2)
    (hs : ∀ a, start a = (((![0, oy, ox] : Fin 3 → Nat) a : Nat) : Int))
    (n : Fin 64) (y x : Fin 256) :
    Host.dynamicSlice S64x256x256 (pad S64x258x258 ![0, 1, 1] ![0, 1, 1] ![0, 0, 0] X v hp hu) start hfit (ix3 n y x)
      = shX (shY (fun y x => X (ix3 n y x)) oy) ox y x := by
  have hy := y.isLt
  have hx := x.isLt
  have hoff : S64x258x258.Slices (![0, oy, ox] : Fin 3 → Nat) S64x256x256 := ⟨rfl, fun a => by
    match a with
    | ⟨0, _⟩ => show 0 + 64 ≤ 64; omega
    | ⟨1, _⟩ => show oy + 256 ≤ 258; omega
    | ⟨2, _⟩ => show ox + 256 ≤ 258; omega⟩
  rw [Host.dynamicSlice_eq_extractStridedSlice S64x256x256 _ start ![0, oy, ox] hfit hoff hs]
  rw [extractStridedSlice_apply ![0, oy, ox] _ hoff (ix3 n y x)
    (ix3 n (⟨oy + y.val, by omega⟩ : Fin 258) (⟨ox + x.val, by omega⟩ : Fin 258)) (fun a => by
      match a with
      | ⟨0, _⟩ => show n.val = 0 + n.val; omega
      | ⟨1, _⟩ => rfl
      | ⟨2, _⟩ => rfl)]
  unfold shX
  by_cases hX : 1 ≤ x.val + ox ∧ x.val + ox ≤ 256
  · rw [dif_pos hX]
    unfold shY
    by_cases hY : 1 ≤ y.val + oy ∧ y.val + oy ≤ 256
    · rw [dif_pos hY]
      exact pad_apply_of_inside _ _ _ X v hp hu _
        (ix3 n (⟨y.val + oy - 1, by omega⟩ : Fin 256) (⟨x.val + ox - 1, by omega⟩ : Fin 256)) (fun a => by
          match a with
          | ⟨0, _⟩ => show n.val = 0 + n.val * (0 + 1); omega
          | ⟨1, _⟩ => show oy + y.val = 1 + (y.val + oy - 1) * (0 + 1); omega
          | ⟨2, _⟩ => show ox + x.val = 1 + (x.val + ox - 1) * (0 + 1); omega)
    · rw [dif_neg hY]
      refine (pad_apply_of_not_inside _ _ _ X v hp hu _ (1 : Fin 3) (fun h => hY ?_)).trans hv
      have h1 : 1 ≤ oy + y.val := h.1
      have h3 : (oy + y.val - 1) / 1 < 256 := h.2.2
      omega
  · rw [dif_neg hX]
    refine (pad_apply_of_not_inside _ _ _ X v hp hu _ (2 : Fin 3) (fun h => hX ?_)).trans hv
    have h1 : 1 ≤ ox + x.val := h.1
    have h3 : (ox + x.val - 1) / 1 < 256 := h.2.2
    omega

/-- The window of the bordered array `C` whose planes are `cu`. -/
theorem inner_read {u : Shape} (cu : Plane) (n : Fin 64) (C : S64x256x256.Idx → EReal)
    (hC : (fun y x => C (ix3 n y x)) = cu) (v : u.Idx → EReal)
    (hp : S64x256x256.Pads (![0, 1, 1] : Fin 3 → Nat) ![0, 1, 1] ![0, 0, 0] S64x258x258) (hu : 0 < u.numel)
    (hv : v (Shape.Idx.first hu) = 0)
    (start : Fin 3 → Int) (hfit : S64x258x258.Slices (fun _ => 0) S64x256x256)
    (iy ix : Nat) (hiy : iy ≤ 2) (hix : ix ≤ 2)
    (hs : ∀ a, start a = (((![0, iy, ix] : Fin 3 → Nat) a : Nat) : Int)) (y x : Fin 256) :
    Host.dynamicSlice S64x256x256 (pad S64x258x258 ![0, 1, 1] ![0, 1, 1] ![0, 0, 0] C v hp hu) start hfit (ix3 n y x)
      = shX (shY cu iy) ix y x :=
  (shift_read C v hp hu hv start hfit iy ix hiy hix hs n y x).trans (by rw [hC])

/-- The window of the bordered array `P` whose planes are a weight plane times a shifted current plane: an outer tap. -/
theorem outer_read {u : Shape} (a : Planes) (cu : Plane) (c : Fin 8) (n : Fin 64) (iy ix : Nat)
    (P : S64x256x256.Idx → EReal)
    (hP : ∀ y x, P (ix3 n y x) = wgt a c y x * shX (shY cu iy) ix y x) (v : u.Idx → EReal)
    (hp : S64x256x256.Pads (![0, 1, 1] : Fin 3 → Nat) ![0, 1, 1] ![0, 0, 0] S64x258x258) (hu : 0 < u.numel)
    (hv : v (Shape.Idx.first hu) = 0)
    (start : Fin 3 → Int) (hfit : S64x258x258.Slices (fun _ => 0) S64x256x256)
    (oy ox : Nat) (hoy : oy ≤ 2) (hox : ox ≤ 2)
    (hs : ∀ a, start a = (((![0, oy, ox] : Fin 3 → Nat) a : Nat) : Int)) (y x : Fin 256) :
    Host.dynamicSlice S64x256x256 (pad S64x258x258 ![0, 1, 1] ![0, 1, 1] ![0, 0, 0] P v hp hu) start hfit (ix3 n y x)
      = tap a cu c oy ox iy ix y x := by
  refine (shift_read P v hp hu hv start hfit oy ox hoy hox hs n y x).trans ?_
  unfold tap
  exact congrArg (fun w : Plane => shX (shY w oy) ox y x) (funext fun y' => funext fun x' => hP y' x')

/-- The integer `0` converted to a real is `0`: the border's value. -/
theorem sitofp_zero : (((0#32 : BitVec 32).toInt : ℝ) : EReal) = 0 := by
  rw [show (0#32 : BitVec 32).toInt = 0 from rfl]; simp

/-! ## Indices -/

/-- An index of `[64, 1, 256, 256]` whose coordinates are the row-major position `(n · 256 + y) · 256 + x` split again
    is `(n, 0, y, x)`: dropping the unit axis moves no element. -/
theorem idx_reshape (j : S64x1x256x256.Idx) (n : Fin 64) (y x : Fin 256)
    (h0 : (j 0).val = ((n.val * 256 + y.val) * 256 + x.val) / 65536) (h1 : (j 1).val = 0)
    (h2 : (j 2).val = ((n.val * 256 + y.val) * 256 + x.val) / 256 % 256)
    (h3 : (j 3).val = ((n.val * 256 + y.val) * 256 + x.val) % 256) : j = ix4 n 0 y x := by
  have hn := n.isLt
  have hy := y.isLt
  have hx := x.isLt
  funext a
  match a with
  | ⟨0, _⟩ => exact Fin.ext (by show (j 0).val = n.val; omega)
  | ⟨1, _⟩ => exact Fin.ext (by show (j 1).val = 0; omega)
  | ⟨2, _⟩ => exact Fin.ext (by show (j 2).val = y.val; omega)
  | ⟨3, _⟩ => exact Fin.ext (by show (j 3).val = x.val; omega)

/-- The same through the one-channel block at channel `k` of the nine joined planes: `(n, k, y, x)`. -/
theorem idx_tap (j : S64x9x256x256.Idx) (k : Fin 9) (n : Fin 64) (y x : Fin 256)
    (h0 : (j 0).val = ((n.val * 256 + y.val) * 256 + x.val) / 65536) (h1 : (j 1).val = k.val)
    (h2 : (j 2).val = ((n.val * 256 + y.val) * 256 + x.val) / 256 % 256)
    (h3 : (j 3).val = ((n.val * 256 + y.val) * 256 + x.val) % 256) : j = ix4 n k y x := by
  have hn := n.isLt
  have hy := y.isLt
  have hx := x.isLt
  funext a
  match a with
  | ⟨0, _⟩ => exact Fin.ext (by show (j 0).val = n.val; omega)
  | ⟨1, _⟩ => exact Fin.ext (by show (j 1).val = k.val; omega)
  | ⟨2, _⟩ => exact Fin.ext (by show (j 2).val = y.val; omega)
  | ⟨3, _⟩ => exact Fin.ext (by show (j 3).val = x.val; omega)

/-! ## The current and the coarse plane -/

theorem v12_plane (x1 : (⟨S64x1x256x256, .f32⟩ : BufTy).Contents (Elt Ideal)) (n : Fin 64) :
    (fun y x => val_main_v12 (F := Ideal) x1 (ix3 n y x)) = plane x1 n := by
  funext y x
  exact (val_main_v12_apply x1 (ix3 n y x)).trans
    (congrArg x1 (idx_reshape (idx_main_v12 (ix3 n y x)) n y x rfl rfl rfl rfl))

theorem v13_read (x2 : (⟨S64x1x256x256, .f32⟩ : BufTy).Contents (Elt Ideal)) (n : Fin 64) (y x : Fin 256) :
    val_main_v13 (F := Ideal) x2 (ix3 n y x) = plane x2 n y x :=
  (val_main_v13_apply x2 (ix3 n y x)).trans
    (congrArg x2 (idx_reshape (idx_main_v13 (ix3 n y x)) n y x rfl rfl rfl rfl))

/-! ## The nine joined planes -/

/-- The normalised weight of channel `c`: the entry over the sum of the eight absolute values at the pixel. -/
theorem v6_read (x0 : (⟨S64x8x256x256, .f32⟩ : BufTy).Contents (Elt Ideal)) (n : Fin 64) (c : Fin 8) (y x : Fin 256) :
    val_main_v6 (F := Ideal) x0 (ix4 n c y x) = wgt (planes x0 n) c y x := by
  have hidx : ∀ k : Fin 8, idx_main_v1 (idx_main_v2 (idx_main_v5 (ix4 n c y x))) k = ix4 n k y x := fun k => by
    funext a
    match a with
    | ⟨0, _⟩ => rfl
    | ⟨1, _⟩ => rfl
    | ⟨2, _⟩ => rfl
    | ⟨3, _⟩ => rfl
  have hsum : val_main_v1 (F := Ideal) x0 (idx_main_v2 (idx_main_v5 (ix4 n c y x))) = absSum (planes x0 n) y x := by
    rw [val_main_v1_apply, val_main_cst_apply, Ideal.ofBits_def, Ideal.ofBits_zero_f32, zero_add]
    refine Finset.sum_congr rfl fun k _ => ?_
    rw [hidx k]
    rfl
  rw [val_main_v6_apply, val_main_v5_apply, val_main_v2_apply, hsum]
  rfl

/-- Channels 0 … 3 of the join are the first piece. -/
theorem v11_lo (x0 : (⟨S64x8x256x256, .f32⟩ : BufTy).Contents (Elt Ideal)) (n : Fin 64) (c : Fin 4) (y x : Fin 256) (k : Fin 9) (hk : k.val = c.val) :
    val_main_v11 (F := Ideal) x0 (ix4 n k y x) = val_main_v7 (F := Ideal) x0 (ix4 n c y x) := by
  unfold val_main_v11
  exact concatenate_apply_piece (t := S64x9x256x256) 1
    [⟨S64x4x256x256, val_main_v7 (F := Ideal) x0⟩, ⟨S64x1x256x256, val_main_v9 (F := Ideal) x0⟩, ⟨S64x4x256x256, val_main_v10 (F := Ideal) x0⟩]
    concatenates_S64x4x256x256_S64x1x256x256_S64x4x256x256_S64x9x256x256_d1 (ix4 n k y x) 0 (by show 0 < 3; omega) S64x4x256x256
    (val_main_v7 (F := Ideal) x0) rfl rfl 0 rfl
    (ix4 n c y x) (fun b hb => by
      match b with
      | ⟨0, _⟩ => rfl
      | ⟨1, _⟩ => exact absurd (Fin.ext rfl) hb
      | ⟨2, _⟩ => rfl
      | ⟨3, _⟩ => rfl) (by show 0 + c.val = k.val; omega)

/-- Channel 4 of the join is the second piece, of one channel. -/
theorem v11_mid (x0 : (⟨S64x8x256x256, .f32⟩ : BufTy).Contents (Elt Ideal)) (n : Fin 64) (y x : Fin 256) :
    val_main_v11 (F := Ideal) x0 (ix4 n 4 y x) = val_main_v9 (F := Ideal) x0 (ix4 n 0 y x) := by
  unfold val_main_v11
  exact concatenate_apply_piece (t := S64x9x256x256) 1
    [⟨S64x4x256x256, val_main_v7 (F := Ideal) x0⟩, ⟨S64x1x256x256, val_main_v9 (F := Ideal) x0⟩, ⟨S64x4x256x256, val_main_v10 (F := Ideal) x0⟩]
    concatenates_S64x4x256x256_S64x1x256x256_S64x4x256x256_S64x9x256x256_d1 (ix4 n 4 y x) 1 (by show 1 < 3; omega) S64x1x256x256
    (val_main_v9 (F := Ideal) x0) rfl rfl 4 rfl
    (ix4 n 0 y x) (fun b hb => by
      match b with
      | ⟨0, _⟩ => rfl
      | ⟨1, _⟩ => exact absurd (Fin.ext rfl) hb
      | ⟨2, _⟩ => rfl
      | ⟨3, _⟩ => rfl) rfl

/-- Channels 5 … 8 of the join are the third piece. -/
theorem v11_hi (x0 : (⟨S64x8x256x256, .f32⟩ : BufTy).Contents (Elt Ideal)) (n : Fin 64) (c : Fin 4) (y x : Fin 256) (k : Fin 9) (hk : k.val = 5 + c.val) :
    val_main_v11 (F := Ideal) x0 (ix4 n k y x) = val_main_v10 (F := Ideal) x0 (ix4 n c y x) := by
  unfold val_main_v11
  exact concatenate_apply_piece (t := S64x9x256x256) 1
    [⟨S64x4x256x256, val_main_v7 (F := Ideal) x0⟩, ⟨S64x1x256x256, val_main_v9 (F := Ideal) x0⟩, ⟨S64x4x256x256, val_main_v10 (F := Ideal) x0⟩]
    concatenates_S64x4x256x256_S64x1x256x256_S64x4x256x256_S64x9x256x256_d1 (ix4 n k y x) 2 (by show 2 < 3; omega) S64x4x256x256
    (val_main_v10 (F := Ideal) x0) rfl rfl 5 rfl
    (ix4 n c y x) (fun b hb => by
      match b with
      | ⟨0, _⟩ => rfl
      | ⟨1, _⟩ => exact absurd (Fin.ext rfl) hb
      | ⟨2, _⟩ => rfl
      | ⟨3, _⟩ => rfl) (by show 5 + c.val = k.val; omega)

/-- Joined plane `k ≠ 4` is the normalised weight of channel `k` (`k < 4`) or `k - 1` (`k > 4`). -/
theorem v11_outer (x0 : (⟨S64x8x256x256, .f32⟩ : BufTy).Contents (Elt Ideal)) (n : Fin 64) (y x : Fin 256) (k : Fin 9) (c : Fin 8)
    (h : (k.val < 4 ∧ c.val = k.val) ∨ (4 < k.val ∧ c.val + 1 = k.val)) :
    val_main_v11 (F := Ideal) x0 (ix4 n k y x) = wgt (planes x0 n) c y x := by
  have hk9 := k.isLt
  rcases h with ⟨h4, hc⟩ | ⟨h4, hc⟩
  · refine (v11_lo x0 n ⟨k.val, h4⟩ y x k rfl).trans ((val_main_v7_apply x0 _).trans ?_)
    refine (congrArg (val_main_v6 (F := Ideal) x0) ?_).trans (v6_read x0 n c y x)
    funext a
    match a with
    | ⟨0, _⟩ => rfl
    | ⟨1, _⟩ => exact Fin.ext hc.symm
    | ⟨2, _⟩ => rfl
    | ⟨3, _⟩ => rfl
  · refine (v11_hi x0 n ⟨k.val - 5, by omega⟩ y x k (by show k.val = 5 + (k.val - 5); omega)).trans
      ((val_main_v10_apply x0 _).trans ?_)
    refine (congrArg (val_main_v6 (F := Ideal) x0) ?_).trans (v6_read x0 n c y x)
    funext a
    match a with
    | ⟨0, _⟩ => rfl
    | ⟨1, _⟩ => exact Fin.ext (by show 4 + (k.val - 5) = c.val; omega)
    | ⟨2, _⟩ => rfl
    | ⟨3, _⟩ => rfl

/-- Joined plane 4 is the complement of the plain sum of the eight entries. -/
theorem v11_centre (x0 : (⟨S64x8x256x256, .f32⟩ : BufTy).Contents (Elt Ideal)) (n : Fin 64) (y x : Fin 256) :
    val_main_v11 (F := Ideal) x0 (ix4 n 4 y x) = one32 - rawSum (planes x0 n) y x := by
  have hidx : ∀ k : Fin 8, idx_main_v3 (idx_main_v4 (ix4 n (0 : Fin 1) y x)) k = ix4 n k y x := fun k => by
    funext a
    match a with
    | ⟨0, _⟩ => rfl
    | ⟨1, _⟩ => rfl
    | ⟨2, _⟩ => rfl
    | ⟨3, _⟩ => rfl
  refine (v11_mid x0 n y x).trans ?_
  rw [val_main_v9_apply, val_main_v8_apply, val_main_cst_1_apply, val_main_v4_apply, val_main_v3_apply,
    val_main_cst_0_apply, Ideal.ofBits_def, Ideal.ofBits_def, Ideal.ofBits_zero_f32, zero_add, Ideal.subf_def]
  refine congrArg (fun t : EReal => Ideal.ofBits .f32 0x3F800000#32 - t) (Finset.sum_congr rfl fun k _ => ?_)
  rw [hidx k]
  rfl

/-! ## The weight plane each tap multiplies by -/

theorem v18_read (x0 : (⟨S64x8x256x256, .f32⟩ : BufTy).Contents (Elt Ideal)) (n : Fin 64) (y x : Fin 256) :
    val_main_v18 (F := Ideal) x0 (ix3 n y x) = wgt (planes x0 n) 0 y x :=
  (val_main_v18_apply x0 (ix3 n y x)).trans ((val_main_v17_apply x0 (idx_main_v18 (ix3 n y x))).trans
    ((congrArg (val_main_v11 (F := Ideal) x0)
      (idx_tap (idx_main_v17 (idx_main_v18 (ix3 n y x))) 0 n y x rfl rfl rfl rfl)).trans
      (v11_outer x0 n y x 0 0 (Or.inl ⟨by decide, rfl⟩))))

theorem v26_read (x0 : (⟨S64x8x256x256, .f32⟩ : BufTy).Contents (Elt Ideal)) (n : Fin 64) (y x : Fin 256) :
    val_main_v26 (F := Ideal) x0 (ix3 n y x) = wgt (planes x0 n) 1 y x :=
  (val_main_v26_apply x0 (ix3 n y x)).trans ((val_main_v25_apply x0 (idx_main_v26 (ix3 n y x))).trans
    ((congrArg (val_main_v11 (F := Ideal) x0)
      (idx_tap (idx_main_v25 (idx_main_v26 (ix3 n y x))) 1 n y x rfl rfl rfl rfl)).trans
      (v11_outer x0 n y x 1 1 (Or.inl ⟨by decide, rfl⟩))))

theorem v34_read (x0 : (⟨S64x8x256x256, .f32⟩ : BufTy).Contents (Elt Ideal)) (n : Fin 64) (y x : Fin 256) :
    val_main_v34 (F := Ideal) x0 (ix3 n y x) = wgt (planes x0 n) 2 y x :=
  (val_main_v34_apply x0 (ix3 n y x)).trans ((val_main_v33_apply x0 (idx_main_v34 (ix3 n y x))).trans
    ((congrArg (val_main_v11 (F := Ideal) x0)
      (idx_tap (idx_main_v33 (idx_main_v34 (ix3 n y x))) 2 n y x rfl rfl rfl rfl)).trans
      (v11_outer x0 n y x 2 2 (Or.inl ⟨by decide, rfl⟩))))

theorem v42_read (x0 : (⟨S64x8x256x256, .f32⟩ : BufTy).Contents (Elt Ideal)) (n : Fin 64) (y x : Fin 256) :
    val_main_v42 (F := Ideal) x0 (ix3 n y x) = wgt (planes x0 n) 3 y x :=
  (val_main_v42_apply x0 (ix3 n y x)).trans ((val_main_v41_apply x0 (idx_main_v42 (ix3 n y x))).trans
    ((congrArg (val_main_v11 (F := Ideal) x0)
      (idx_tap (idx_main_v41 (idx_main_v42 (ix3 n y x))) 3 n y x rfl rfl rfl rfl)).trans
      (v11_outer x0 n y x 3 3 (Or.inl ⟨by decide, rfl⟩))))

theorem v56_read (x0 : (⟨S64x8x256x256, .f32⟩ : BufTy).Contents (Elt Ideal)) (n : Fin 64) (y x : Fin 256) :
    val_main_v56 (F := Ideal) x0 (ix3 n y x) = wgt (planes x0 n) 4 y x :=
  (val_main_v56_apply x0 (ix3 n y x)).trans ((val_main_v55_apply x0 (idx_main_v56 (ix3 n y x))).trans
    ((congrArg (val_main_v11 (F := Ideal) x0)
      (idx_tap (idx_main_v55 (idx_main_v56 (ix3 n y x))) 5 n y x rfl rfl rfl rfl)).trans
      (v11_outer x0 n y x 5 4 (Or.inr ⟨by decide, rfl⟩))))

theorem v64_read (x0 : (⟨S64x8x256x256, .f32⟩ : BufTy).Contents (Elt Ideal)) (n : Fin 64) (y x : Fin 256) :
    val_main_v64 (F := Ideal) x0 (ix3 n y x) = wgt (planes x0 n) 5 y x :=
  (val_main_v64_apply x0 (ix3 n y x)).trans ((val_main_v63_apply x0 (idx_main_v64 (ix3 n y x))).trans
    ((congrArg (val_main_v11 (F := Ideal) x0)
      (idx_tap (idx_main_v63 (idx_main_v64 (ix3 n y x))) 6 n y x rfl rfl rfl rfl)).trans
      (v11_outer x0 n y x 6 5 (Or.inr ⟨by decide, rfl⟩))))

theorem v72_read (x0 : (⟨S64x8x256x256, .f32⟩ : BufTy).Contents (Elt Ideal)) (n : Fin 64) (y x : Fin 256) :
    val_main_v72 (F := Ideal) x0 (ix3 n y x) = wgt (planes x0 n) 6 y x :=
  (val_main_v72_apply x0 (ix3 n y x)).trans ((val_main_v71_apply x0 (idx_main_v72 (ix3 n y x))).trans
    ((congrArg (val_main_v11 (F := Ideal) x0)
      (idx_tap (idx_main_v71 (idx_main_v72 (ix3 n y x))) 7 n y x rfl rfl rfl rfl)).trans
      (v11_outer x0 n y x 7 6 (Or.inr ⟨by decide, rfl⟩))))

theorem v80_read (x0 : (⟨S64x8x256x256, .f32⟩ : BufTy).Contents (Elt Ideal)) (n : Fin 64) (y x : Fin 256) :
    val_main_v80 (F := Ideal) x0 (ix3 n y x) = wgt (planes x0 n) 7 y x :=
  (val_main_v80_apply x0 (ix3 n y x)).trans ((val_main_v79_apply x0 (idx_main_v80 (ix3 n y x))).trans
    ((congrArg (val_main_v11 (F := Ideal) x0)
      (idx_tap (idx_main_v79 (idx_main_v80 (ix3 n y x))) 8 n y x rfl rfl rfl rfl)).trans
      (v11_outer x0 n y x 8 7 (Or.inr ⟨by decide, rfl⟩))))

theorem v48_read (x0 : (⟨S64x8x256x256, .f32⟩ : BufTy).Contents (Elt Ideal)) (n : Fin 64) (y x : Fin 256) :
    val_main_v48 (F := Ideal) x0 (ix3 n y x) = one32 - rawSum (planes x0 n) y x :=
  (val_main_v48_apply x0 (ix3 n y x)).trans ((val_main_v47_apply x0 (idx_main_v48 (ix3 n y x))).trans
    ((congrArg (val_main_v11 (F := Ideal) x0)
      (idx_tap (idx_main_v47 (idx_main_v48 (ix3 n y x))) 4 n y x rfl rfl rfl rfl)).trans (v11_centre x0 n y x)))

/-! ## The taps -/

theorem v16_read (x1 : (⟨S64x1x256x256, .f32⟩ : BufTy).Contents (Elt Ideal)) (n : Fin 64) (y x : Fin 256) :
    val_main_v16 (F := Ideal) x1 (ix3 n y x) = shX (shY (plane x1 n) 0) 0 y x := by
  unfold val_main_v16 val_main_v15
  exact inner_read (plane x1 n) n (val_main_v12 (F := Ideal) x1) (v12_plane x1 n) _ _ _ (by exact sitofp_zero) _ _ 0 0
    (by omega) (by omega) (fun a => by match a with | ⟨0, _⟩ => rfl | ⟨1, _⟩ => rfl | ⟨2, _⟩ => rfl) y x

theorem v21_read (x0 : (⟨S64x8x256x256, .f32⟩ : BufTy).Contents (Elt Ideal)) (x1 : (⟨S64x1x256x256, .f32⟩ : BufTy).Contents (Elt Ideal)) (n : Fin 64) (y x : Fin 256) :
    val_main_v21 (F := Ideal) x0 x1 (ix3 n y x) = tap (planes x0 n) (plane x1 n) 0 2 2 0 0 y x := by
  unfold val_main_v21 val_main_v20
  exact outer_read (planes x0 n) (plane x1 n) 0 n 0 0 (val_main_v19 (F := Ideal) x0 x1)
    (fun y' x' => (val_main_v19_apply x0 x1 _).trans
      (congrArg₂ (fun s t : EReal => s * t) (v18_read x0 n y' x') (v16_read x1 n y' x')))
    _ _ _ (by exact sitofp_zero) _ _ 2 2 (by omega) (by omega) (fun a => by match a with | ⟨0, _⟩ => rfl | ⟨1, _⟩ => rfl | ⟨2, _⟩ => rfl) y x

theorem v24_read (x1 : (⟨S64x1x256x256, .f32⟩ : BufTy).Contents (Elt Ideal)) (n : Fin 64) (y x : Fin 256) :
    val_main_v24 (F := Ideal) x1 (ix3 n y x) = shX (shY (plane x1 n) 0) 1 y x := by
  unfold val_main_v24 val_main_v23
  exact inner_read (plane x1 n) n (val_main_v12 (F := Ideal) x1) (v12_plane x1 n) _ _ _ (by exact sitofp_zero) _ _ 0 1
    (by omega) (by omega) (fun a => by match a with | ⟨0, _⟩ => rfl | ⟨1, _⟩ => rfl | ⟨2, _⟩ => rfl) y x

theorem v29_read (x0 : (⟨S64x8x256x256, .f32⟩ : BufTy).Contents (Elt Ideal)) (x1 : (⟨S64x1x256x256, .f32⟩ : BufTy).Contents (Elt Ideal)) (n : Fin 64) (y x : Fin 256) :
    val_main_v29 (F := Ideal) x0 x1 (ix3 n y x) = tap (planes x0 n) (plane x1 n) 1 2 1 0 1 y x := by
  unfold val_main_v29 val_main_v28
  exact outer_read (planes x0 n) (plane x1 n) 1 n 0 1 (val_main_v27 (F := Ideal) x0 x1)
    (fun y' x' => (val_main_v27_apply x0 x1 _).trans
      (congrArg₂ (fun s t : EReal => s * t) (v26_read x0 n y' x') (v24_read x1 n y' x')))
    _ _ _ (by exact sitofp_zero) _ _ 2 1 (by omega) (by omega) (fun a => by match a with | ⟨0, _⟩ => rfl | ⟨1, _⟩ => rfl | ⟨2, _⟩ => rfl) y x

theorem v32_read (x1 : (⟨S64x1x256x256, .f32⟩ : BufTy).Contents (Elt Ideal)) (n : Fin 64) (y x : Fin 256) :
    val_main_v32 (F := Ideal) x1 (ix3 n y x) = shX (shY (plane x1 n) 0) 2 y x := by
  unfold val_main_v32 val_main_v31
  exact inner_read (plane x1 n) n (val_main_v12 (F := Ideal) x1) (v12_plane x1 n) _ _ _ (by exact sitofp_zero) _ _ 0 2
    (by omega) (by omega) (fun a => by match a with | ⟨0, _⟩ => rfl | ⟨1, _⟩ => rfl | ⟨2, _⟩ => rfl) y x

theorem v37_read (x0 : (⟨S64x8x256x256, .f32⟩ : BufTy).Contents (Elt Ideal)) (x1 : (⟨S64x1x256x256, .f32⟩ : BufTy).Contents (Elt Ideal)) (n : Fin 64) (y x : Fin 256) :
    val_main_v37 (F := Ideal) x0 x1 (ix3 n y x) = tap (planes x0 n) (plane x1 n) 2 2 0 0 2 y x := by
  unfold val_main_v37 val_main_v36
  exact outer_read (planes x0 n) (plane x1 n) 2 n 0 2 (val_main_v35 (F := Ideal) x0 x1)
    (fun y' x' => (val_main_v35_apply x0 x1 _).trans
      (congrArg₂ (fun s t : EReal => s * t) (v34_read x0 n y' x') (v32_read x1 n y' x')))
    _ _ _ (by exact sitofp_zero) _ _ 2 0 (by omega) (by omega) (fun a => by match a with | ⟨0, _⟩ => rfl | ⟨1, _⟩ => rfl | ⟨2, _⟩ => rfl) y x

theorem v40_read (x1 : (⟨S64x1x256x256, .f32⟩ : BufTy).Contents (Elt Ideal)) (n : Fin 64) (y x : Fin 256) :
    val_main_v40 (F := Ideal) x1 (ix3 n y x) = shX (shY (plane x1 n) 1) 0 y x := by
  unfold val_main_v40 val_main_v39
  exact inner_read (plane x1 n) n (val_main_v12 (F := Ideal) x1) (v12_plane x1 n) _ _ _ (by exact sitofp_zero) _ _ 1 0
    (by omega) (by omega) (fun a => by match a with | ⟨0, _⟩ => rfl | ⟨1, _⟩ => rfl | ⟨2, _⟩ => rfl) y x

theorem v45_read (x0 : (⟨S64x8x256x256, .f32⟩ : BufTy).Contents (Elt Ideal)) (x1 : (⟨S64x1x256x256, .f32⟩ : BufTy).Contents (Elt Ideal)) (n : Fin 64) (y x : Fin 256) :
    val_main_v45 (F := Ideal) x0 x1 (ix3 n y x) = tap (planes x0 n) (plane x1 n) 3 1 2 1 0 y x := by
  unfold val_main_v45 val_main_v44
  exact outer_read (planes x0 n) (plane x1 n) 3 n 1 0 (val_main_v43 (F := Ideal) x0 x1)
    (fun y' x' => (val_main_v43_apply x0 x1 _).trans
      (congrArg₂ (fun s t : EReal => s * t) (v42_read x0 n y' x') (v40_read x1 n y' x')))
    _ _ _ (by exact sitofp_zero) _ _ 1 2 (by omega) (by omega) (fun a => by match a with | ⟨0, _⟩ => rfl | ⟨1, _⟩ => rfl | ⟨2, _⟩ => rfl) y x

theorem v54_read (x1 : (⟨S64x1x256x256, .f32⟩ : BufTy).Contents (Elt Ideal)) (n : Fin 64) (y x : Fin 256) :
    val_main_v54 (F := Ideal) x1 (ix3 n y x) = shX (shY (plane x1 n) 1) 2 y x := by
  unfold val_main_v54 val_main_v53
  exact inner_read (plane x1 n) n (val_main_v12 (F := Ideal) x1) (v12_plane x1 n) _ _ _ (by exact sitofp_zero) _ _ 1 2
    (by omega) (by omega) (fun a => by match a with | ⟨0, _⟩ => rfl | ⟨1, _⟩ => rfl | ⟨2, _⟩ => rfl) y x

theorem v59_read (x0 : (⟨S64x8x256x256, .f32⟩ : BufTy).Contents (Elt Ideal)) (x1 : (⟨S64x1x256x256, .f32⟩ : BufTy).Contents (Elt Ideal)) (n : Fin 64) (y x : Fin 256) :
    val_main_v59 (F := Ideal) x0 x1 (ix3 n y x) = tap (planes x0 n) (plane x1 n) 4 1 0 1 2 y x := by
  unfold val_main_v59 val_main_v58
  exact outer_read (planes x0 n) (plane x1 n) 4 n 1 2 (val_main_v57 (F := Ideal) x0 x1)
    (fun y' x' => (val_main_v57_apply x0 x1 _).trans
      (congrArg₂ (fun s t : EReal => s * t) (v56_read x0 n y' x') (v54_read x1 n y' x')))
    _ _ _ (by exact sitofp_zero) _ _ 1 0 (by omega) (by omega) (fun a => by match a with | ⟨0, _⟩ => rfl | ⟨1, _⟩ => rfl | ⟨2, _⟩ => rfl) y x

theorem v62_read (x1 : (⟨S64x1x256x256, .f32⟩ : BufTy).Contents (Elt Ideal)) (n : Fin 64) (y x : Fin 256) :
    val_main_v62 (F := Ideal) x1 (ix3 n y x) = shX (shY (plane x1 n) 2) 0 y x := by
  unfold val_main_v62 val_main_v61
  exact inner_read (plane x1 n) n (val_main_v12 (F := Ideal) x1) (v12_plane x1 n) _ _ _ (by exact sitofp_zero) _ _ 2 0
    (by omega) (by omega) (fun a => by match a with | ⟨0, _⟩ => rfl | ⟨1, _⟩ => rfl | ⟨2, _⟩ => rfl) y x

theorem v67_read (x0 : (⟨S64x8x256x256, .f32⟩ : BufTy).Contents (Elt Ideal)) (x1 : (⟨S64x1x256x256, .f32⟩ : BufTy).Contents (Elt Ideal)) (n : Fin 64) (y x : Fin 256) :
    val_main_v67 (F := Ideal) x0 x1 (ix3 n y x) = tap (planes x0 n) (plane x1 n) 5 0 2 2 0 y x := by
  unfold val_main_v67 val_main_v66
  exact outer_read (planes x0 n) (plane x1 n) 5 n 2 0 (val_main_v65 (F := Ideal) x0 x1)
    (fun y' x' => (val_main_v65_apply x0 x1 _).trans
      (congrArg₂ (fun s t : EReal => s * t) (v64_read x0 n y' x') (v62_read x1 n y' x')))
    _ _ _ (by exact sitofp_zero) _ _ 0 2 (by omega) (by omega) (fun a => by match a with | ⟨0, _⟩ => rfl | ⟨1, _⟩ => rfl | ⟨2, _⟩ => rfl) y x

theorem v70_read (x1 : (⟨S64x1x256x256, .f32⟩ : BufTy).Contents (Elt Ideal)) (n : Fin 64) (y x : Fin 256) :
    val_main_v70 (F := Ideal) x1 (ix3 n y x) = shX (shY (plane x1 n) 2) 1 y x := by
  unfold val_main_v70 val_main_v69
  exact inner_read (plane x1 n) n (val_main_v12 (F := Ideal) x1) (v12_plane x1 n) _ _ _ (by exact sitofp_zero) _ _ 2 1
    (by omega) (by omega) (fun a => by match a with | ⟨0, _⟩ => rfl | ⟨1, _⟩ => rfl | ⟨2, _⟩ => rfl) y x

theorem v75_read (x0 : (⟨S64x8x256x256, .f32⟩ : BufTy).Contents (Elt Ideal)) (x1 : (⟨S64x1x256x256, .f32⟩ : BufTy).Contents (Elt Ideal)) (n : Fin 64) (y x : Fin 256) :
    val_main_v75 (F := Ideal) x0 x1 (ix3 n y x) = tap (planes x0 n) (plane x1 n) 6 0 1 2 1 y x := by
  unfold val_main_v75 val_main_v74
  exact outer_read (planes x0 n) (plane x1 n) 6 n 2 1 (val_main_v73 (F := Ideal) x0 x1)
    (fun y' x' => (val_main_v73_apply x0 x1 _).trans
      (congrArg₂ (fun s t : EReal => s * t) (v72_read x0 n y' x') (v70_read x1 n y' x')))
    _ _ _ (by exact sitofp_zero) _ _ 0 1 (by omega) (by omega) (fun a => by match a with | ⟨0, _⟩ => rfl | ⟨1, _⟩ => rfl | ⟨2, _⟩ => rfl) y x

theorem v78_read (x1 : (⟨S64x1x256x256, .f32⟩ : BufTy).Contents (Elt Ideal)) (n : Fin 64) (y x : Fin 256) :
    val_main_v78 (F := Ideal) x1 (ix3 n y x) = shX (shY (plane x1 n) 2) 2 y x := by
  unfold val_main_v78 val_main_v77
  exact inner_read (plane x1 n) n (val_main_v12 (F := Ideal) x1) (v12_plane x1 n) _ _ _ (by exact sitofp_zero) _ _ 2 2
    (by omega) (by omega) (fun a => by match a with | ⟨0, _⟩ => rfl | ⟨1, _⟩ => rfl | ⟨2, _⟩ => rfl) y x

theorem v83_read (x0 : (⟨S64x8x256x256, .f32⟩ : BufTy).Contents (Elt Ideal)) (x1 : (⟨S64x1x256x256, .f32⟩ : BufTy).Contents (Elt Ideal)) (n : Fin 64) (y x : Fin 256) :
    val_main_v83 (F := Ideal) x0 x1 (ix3 n y x) = tap (planes x0 n) (plane x1 n) 7 0 0 2 2 y x := by
  unfold val_main_v83 val_main_v82
  exact outer_read (planes x0 n) (plane x1 n) 7 n 2 2 (val_main_v81 (F := Ideal) x0 x1)
    (fun y' x' => (val_main_v81_apply x0 x1 _).trans
      (congrArg₂ (fun s t : EReal => s * t) (v80_read x0 n y' x') (v78_read x1 n y' x')))
    _ _ _ (by exact sitofp_zero) _ _ 0 0 (by omega) (by omega) (fun a => by match a with | ⟨0, _⟩ => rfl | ⟨1, _⟩ => rfl | ⟨2, _⟩ => rfl) y x

/-- The centre tap: the window at `(1, 1)` of the bordered array is the array itself. -/
theorem v51_read (x0 : (⟨S64x8x256x256, .f32⟩ : BufTy).Contents (Elt Ideal)) (x2 : (⟨S64x1x256x256, .f32⟩ : BufTy).Contents (Elt Ideal)) (n : Fin 64) (y x : Fin 256) :
    val_main_v51 (F := Ideal) x0 x2 (ix3 n y x) = (one32 - rawSum (planes x0 n) y x) * plane x2 n y x := by
  unfold val_main_v51 val_main_v50
  refine (shift_read (val_main_v49 (F := Ideal) x0 x2) _ _ _ (by exact sitofp_zero) _ _ 1 1 (by omega) (by omega)
    (fun a => by match a with | ⟨0, _⟩ => rfl | ⟨1, _⟩ => rfl | ⟨2, _⟩ => rfl) n y x).trans ?_
  rw [shY_one, shX_one]
  exact (val_main_v49_apply x0 x2 _).trans
    (congrArg₂ (fun s t : EReal => s * t) (v48_read x0 n y x) (v13_read x2 n y x))

/-- The plane the taps are added onto is zero. -/
theorem v14_read (n : Fin 64) (y x : Fin 256) : val_main_v14 (F := Ideal) (ix3 n y x) = 0 := by
  rw [val_main_v14_apply, val_main_cst_2_apply, Ideal.ofBits_def, Ideal.ofBits_zero_f32]

/-! ## The nine taps added in order -/

theorem v84_read (x0 : (⟨S64x8x256x256, .f32⟩ : BufTy).Contents (Elt Ideal)) (x1 x2 : (⟨S64x1x256x256, .f32⟩ : BufTy).Contents (Elt Ideal)) (n : Fin 64) (y x : Fin 256) :
    val_main_v84 (F := Ideal) x0 x1 x2 (ix3 n y x) = Rpix (planes x0 n) (plane x1 n) (plane x2 n) y x := by
  rw [val_main_v84_apply, val_main_v76_apply, val_main_v68_apply, val_main_v60_apply, val_main_v52_apply,
    val_main_v46_apply, val_main_v38_apply, val_main_v30_apply, val_main_v22_apply]
  rw [v83_read, v75_read, v67_read, v59_read, v51_read, v45_read, v37_read, v29_read, v21_read, v14_read]
  rfl

/-- The second program's result is `Rf` of its three arguments. -/
theorem ref_eq (x0 : (⟨S64x8x256x256, .f32⟩ : BufTy).Contents (Elt Ideal)) (x1 x2 : (⟨S64x1x256x256, .f32⟩ : BufTy).Contents (Elt Ideal)) :
    Cert.ReferenceIdeal.ReadP.val_main_v85 (F := Ideal) x0 x1 x2 = Cert.Cspn.Rf (B := 64) x0 x1 x2 := by
  funext i
  obtain ⟨n, c, y, x, rfl⟩ : ∃ (n : Fin 64) (c : Fin 1) (y x : Fin 256), i = ix4 n c y x := ⟨i 0, i 1, i 2, i 3, eq_ix4 i⟩
  refine (val_main_v85_apply x0 x1 x2 _).trans ?_
  have hidx : idx_main_v85 (ix4 n c y x) = ix3 n y x := by
    funext a
    match a with
    | ⟨0, _⟩ => rfl
    | ⟨1, _⟩ => rfl
    | ⟨2, _⟩ => rfl
  rw [hidx]
  exact v84_read x0 x1 x2 n y x

end Cert.ReferenceIdeal.RefValue

end
-- ==== Proof.lean ====
/-
  Equivalence over the reals of a 3 × 3 spatially varying propagation step and its plain formulation.

  Per image: eight affinity planes `a c`, a current plane `cu`, a coarse plane `co`. With `w c = a c / Σ_c |a c|` the plain
  formulation adds nine taps in order: for each of the eight neighbour offsets `d`, the product of `w c` with `cu` gathered
  at the neighbour, scattered back by the same offset (both with a zero border), and the centre `(1 - Σ_c a c) · co`. At an
  output pixel `q` the gather and the scatter cancel on `cu`: tap `c` contributes `w c (q - d) · cu q`, or zero when `q - d`
  leaves the image. The kernel computes exactly that in the other order: it shifts each weight plane by its offset, adds the
  eight shifted planes, and multiplies the sum by `cu q` once.

  So the two differ by one distributive law, `r · (s + t) = r · s + r · t`. On the extended reals it needs care: it holds for
  a REAL `r` and `s, t ≠ ⊤`, and fails when `⊤` and `⊥` mix. Finite inputs give it: `cu q` is real, and a weight is a real
  unless the L1 norm at its pixel is zero, where every plane is zero too and the quotient is the junk `⊥`, never `⊤`
  (Proof/Law.lean). Finiteness is read out of the precondition in Proof/Finite.lean.

  The kernel's side is read off its body (Proof/KernelValue.lean: slices joined with zero rows and columns are the
  one-step shifts) and assembled from the sixteen blocks of four images (Proof/KernelRun.lean); the plain formulation's side
  is read stage by stage (Proof/RefValue.lean). `Cspn.G` and `Cspn.Rf` (Proof/Spec.lean) are the
  two result arrays as functions of the three argument arrays.
-/
import proofs.«155739_j25074019074065_1_alg».proof.Defs
import proofs.«155739_j25074019074065_1_alg».proof.Proof.Gen.Kernel
import proofs.«155739_j25074019074065_1_alg».proof.Proof.Gen.Kernel.Skeleton
import proofs.«155739_j25074019074065_1_alg».proof.Proof.Gen.Kernel.Launch
import proofs.«155739_j25074019074065_1_alg».proof.Proof.Gen.Kernel.Points
import proofs.«155739_j25074019074065_1_alg».proof.Proof.Gen.Kernel.Frame
import proofs.«155739_j25074019074065_1_alg».proof.Proof.Gen.KernelIdeal
import proofs.«155739_j25074019074065_1_alg».proof.Proof.Gen.KernelIdeal.Skeleton
import proofs.«155739_j25074019074065_1_alg».proof.Proof.Gen.KernelIdeal.Launch
import proofs.«155739_j25074019074065_1_alg».proof.Proof.Gen.KernelIdeal.Points
import proofs.«155739_j25074019074065_1_alg».proof.Proof.Gen.KernelIdeal.Frame
import proofs.«155739_j25074019074065_1_alg».proof.Proof.Gen.ReferenceIdeal
import proofs.«155739_j25074019074065_1_alg».proof.Proof.Gen.Pre_finite_inputs
import proofs.«155739_j25074019074065_1_alg».proof.Proof.Gen.KernelIdeal.Value
import proofs.«155739_j25074019074065_1_alg».proof.Proof.RefRunH
import proofs.«155739_j25074019074065_1_alg».proof.Proof.RefReadP
import proofs.«155739_j25074019074065_1_alg».proof.Proof.Spec
import proofs.«155739_j25074019074065_1_alg».proof.Proof.Law
import proofs.«155739_j25074019074065_1_alg».proof.Proof.Finite
import proofs.«155739_j25074019074065_1_alg».proof.Proof.KernelValue
import proofs.«155739_j25074019074065_1_alg».proof.Proof.KernelRun
import proofs.«155739_j25074019074065_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The plain formulation is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel's result array is `Cspn.G` of the arguments, the plain formulation's is `Cspn.Rf` of them, and for finite
    arguments the two are one array. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, Cert.ReferenceIdeal.RefValue.ref_eq, (hagree c).1, (hagree c).2.1, (hagree c).2.2]
  obtain ⟨hA, hcur, _⟩ := Cert.Cspn.finite_of_pre _ _ _ (hpre c)
  exact Cert.Cspn.Rf_eq_G _ _ _ hA hcur

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
